-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x128 : Shape := ⟨2, ![8192, 128]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x128 .f32) (main_arg1 : FVec F S8192x128 .f32) (main_arg2 : FVec F S128x128 .f32) (main_arg3 : FVec F S128 .f32) (main_arg4 : FVec F S128x128 .f32) (main_arg5 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S4096x128 : Shape := ⟨2, ![4096, 128]⟩
abbrev S8192x128 : Shape := ⟨2, ![8192, 128]⟩
abbrev S128x128 : Shape := ⟨2, ![128, 128]⟩
abbrev S128 : Shape := ⟨1, ![128]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S4096x8192 : Shape := ⟨2, ![4096, 8192]⟩
abbrev S256x128 : Shape := ⟨2, ![256, 128]⟩
abbrev S256x8192 : Shape := ⟨2, ![256, 8192]⟩
abbrev S256 : Shape := ⟨1, ![256]⟩
abbrev S256x1 : Shape := ⟨2, ![256, 1]⟩
abbrev S33554432 : Shape := ⟨1, ![33554432]⟩

abbrev nBuf : Space → Nat
  | .hbm => 10
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S8192x128, .f32⟩
  | .hbm, ⟨7, _⟩ => ⟨S8192x128, .bf16⟩
  | .hbm, ⟨8, _⟩ => ⟨S4096x8192, .f32⟩
  | .hbm, ⟨9, _⟩ => ⟨S33554432, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S128, .f32⟩
  | .local _ .vmem, ⟨4, _⟩ => ⟨S1024x128, .f32⟩
  | .local _ .vmem, ⟨5, _⟩ => ⟨S1024x128, .f32⟩
  | .local _ .vmem, ⟨6, _⟩ => ⟨S1024x128, .bf16⟩
  | .local _ .vmem, ⟨7, _⟩ => ⟨S1024x128, .bf16⟩
  | .local _ .vmem, ⟨8, _⟩ => ⟨S256x128, .f32⟩
  | .local _ .vmem, ⟨9, _⟩ => ⟨S256x128, .f32⟩
  | .local _ .vmem, ⟨10, _⟩ => ⟨S8192x128, .f32⟩
  | .local _ .vmem, ⟨11, _⟩ => ⟨S8192x128, .bf16⟩
  | .local _ .vmem, ⟨12, _⟩ => ⟨S128x128, .f32⟩
  | .local _ .vmem, ⟨13, _⟩ => ⟨S128, .f32⟩
  | .local _ .vmem, ⟨14, _⟩ => ⟨S256x8192, .f32⟩
  | .local _ .vmem, ⟨15, _⟩ => ⟨S256x8192, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  inb_S256x128_S256x128_0_0 : ∀ a, (![0, 0] : Fin 2 → Nat) a + S256x128.size a ≤ S256x128.size a
  h_S256x128 : 0 < S256x128.numel
  broadcasts_S1x128_S256x128 : S1x128.Broadcasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S256x8192_S256 : S256x8192.Reduces [1] S256
  shapeCasts_S256_S256x1 : S256.ShapeCasts S256x1
  broadcasts_S256x1_S256x8192 : S256x1.Broadcasts S256x8192
  reduces_S256x128_S256 : S256x128.Reduces [1] S256
  broadcasts_S256x1_S256x128 : S256x1.Broadcasts S256x128
  inb_S256x8192_S256x8192_0_0 : ∀ a, (![0, 0] : Fin 2 → Nat) a + S256x8192.size a ≤ S256x8192.size a
  h_S256x8192 : 0 < S256x8192.numel
  shapeCasts_S4096x8192_S33554432 : S4096x8192.ShapeCasts S33554432
  dot_S1024x128_S128x128_S1024x128_1_1_0_0_n_n_wf : DotDims.WF S1024x128 S128x128 S1024x128 [1] [1] [0] [0] [] []
  dot_S256x128_S128x128_S256x128_1_1_0_0_n_n_wf : DotDims.WF S256x128 S128x128 S256x128 [1] [1] [0] [0] [] []
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .bf16 = 32 ∨ (Rect.block (s := S8192x128) S1024x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S4096x128.size a
  hwx1_0 : ∀ i : grid1.Coords, EltTy.bits .f32 = 32 ∨ (Rect.block (s := S4096x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x128.size a
  hwx1_2 : ∀ i : grid1.Coords, EltTy.bits .bf16 = 32 ∨ (Rect.block (s := S8192x128) S8192x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x8192.size a ≤ S4096x8192.size a
  hwx1_5 : ∀ i : grid1.Coords, EltTy.bits .f32 = 32 ∨ (Rect.block (s := S4096x8192) S256x8192.size (cc1_transform_5 i) (hinb1_5 i)).WholeWords (EltTy.packing .f32)

variable [Facts₀]

def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf
def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_arg1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S256x8192.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x128 : Shape := ⟨2, ![4096, 128]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S128x8192 : Shape := ⟨2, ![128, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S33554432 : Shape := ⟨1, ![33554432]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S4096x128, .f32⟩
  | .hbm, ⟨8, _⟩ => ⟨S1x128, .f32⟩
  | .hbm, ⟨9, _⟩ => ⟨S4096x128, .f32⟩
  | .hbm, ⟨10, _⟩ => ⟨S4096x128, .f32⟩
  | .hbm, ⟨11, _⟩ => ⟨S128x128, .f32⟩
  | .hbm, ⟨12, _⟩ => ⟨S8192x128, .f32⟩
  | .hbm, ⟨13, _⟩ => ⟨S1x128, .f32⟩
  | .hbm, ⟨14, _⟩ => ⟨S8192x128, .f32⟩
  | .hbm, ⟨15, _⟩ => ⟨S8192x128, .f32⟩
  | .hbm, ⟨16, _⟩ => ⟨S128x8192, .f32⟩
  | .hbm, ⟨17, _⟩ => ⟨S4096x8192, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x8192, .f32⟩
  | .hbm, ⟨25, _⟩ => ⟨S4096x8192, .f32⟩
  | .hbm, ⟨26, _⟩ => ⟨S4096x8192, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x8192, .f32⟩
  | .hbm, ⟨31, _⟩ => ⟨S4096x8192, .f32⟩
  | .hbm, ⟨32, _⟩ => ⟨S33554432, .f32⟩
  | .hbm, ⟨33, _⟩ => ⟨S4096x128, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x128, .f32⟩
  | .hbm, ⟨42, _⟩ => ⟨S4096x128, .f32⟩
  | .hbm, ⟨43, _⟩ => ⟨S8192x128, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x128, .f32⟩
  | .hbm, ⟨52, _⟩ => ⟨S8192x128, .f32⟩
  | .hbm, ⟨53, _⟩ => ⟨S128x8192, .f32⟩
  | .hbm, ⟨54, _⟩ => ⟨S4096x8192, .f32⟩
  | .hbm, ⟨55, _⟩ => ⟨S_, .f32⟩
  | .hbm, ⟨56, _⟩ => ⟨S4096x8192, .f32⟩
  | .hbm, ⟨57, _⟩ => ⟨S4096x8192, .f32⟩
  | .hbm, ⟨58, _⟩ => ⟨S33554432, .f32⟩
  | .hbm, ⟨59, _⟩ => ⟨S33554432, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call2_cst : Ref sig .tc := ⟨.hbm, 55, rfl⟩
abbrev main_call2_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S1x128_S8192x128_0_1 : S1x128.BroadcastsInDim S8192x128 (![0, 1] : Fin 2 → Fin S8192x128.rank)
  transposes_S8192x128_S128x8192_1_0 : S8192x128.Transposes [1, 0] S128x8192
  reducesTo_S4096x8192_S4096_d1 : S4096x8192.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  shapeCasts_S4096x8192_S33554432 : S4096x8192.ShapeCasts S33554432
  reducesTo_S4096x128_S4096_d1 : S4096x128.ReducesTo [1] S4096
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  reducesTo_S8192x128_S8192_d1 : S8192x128.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S4096x8192 : S_.BroadcastsInDim S4096x8192 (![] : Fin 0 → Fin S4096x8192.rank)
  dot_S4096x128_S128x128_S4096x128_1_0_0_1_n_n_wf : DotDims.WF S4096x128 S128x128 S4096x128 [1] [0] [0] [1] [] []
  dot_S8192x128_S128x128_S8192x128_1_0_0_1_n_n_wf : DotDims.WF S8192x128 S128x128 S8192x128 [1] [0] [0] [1] [] []
  dot_S4096x128_S128x8192_S4096x8192_1_0_0_1_n_n_wf : DotDims.WF S4096x128 S128x8192 S4096x8192 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S4096x128_S128x8192_S4096x8192_1_0_0_1_n_n : DotDims S4096x128 S128x8192 S4096x8192 where
  lhsContracting := [1]
  rhsContracting := [0]
  lhsNonContracting := [0]
  rhsNonContracting := [1]
  lhsBatch := []
  rhsBatch := []
  wf := dot_S4096x128_S128x8192_S4096x8192_1_0_0_1_n_n_wf

class Facts : Prop extends Facts₀ where

variable [Facts]
-- ==== Proof.Spec.lean ====
/-
  The mathematics both programs compute, one query row at a time, on the extended reals.

  For a query row `x` (128 entries), key rows `K j` and unit key rows `DN j` (`j` over the keys), a weight matrix `W`
  and a bias `b`:
    * `projRow x W b d = (∑ k, x k * W d k) + b d`: the affine projection `x·Wᵀ + b`;
    * `unitRow x k = x k / max (√(∑ k', x k' * x k')) ε`: the row scaled to unit length, the length floored at `ε`;
    * `dotRows a B j = ∑ k, a k * B j k`: the row's inner product with every row of `B`;
    * `rowMax s`, `softNum s j = exp (s j - rowMax s)`, `rowSum s = ∑ j, softNum s j`: the three pieces of a softmax;
    * the result at key `j` is `relu (cosine) * softmax (scores)`, which one program writes `(c * p) * (1 / l)` and the
      other `c * (p / l)`. The two agree whenever `l ≠ 0`, and `l > 0` when every score is a real number: then the
      row's maximum is real, every `softNum` is non-negative, and each of them is a positive real.
-/
import Idealize.ShloMosaic.PureOps.Ideal
import Idealize.ShloMosaic.PureOps.Ideal.Laws
import Idealize.ShloMosaic.Lib.ValueIdx

noncomputable section

namespace Cert.AttnCos

open Idealize.ShloMosaic Idealize.ShloMosaic.ValueIdx

/-- The length floor `ε` (the f32 nearest `1e-8`), the same word in both programs: never evaluated. -/
def eps : EReal := Ideal.ofBits .f32 0x322BCC77#32
/-- The f32 pattern of `-∞`, the accumulator a row maximum starts from. -/
def negInf : EReal := Ideal.ofBits .f32 0xFF800000#32
/-- The f32 pattern of `1.0`. -/
def one32 : EReal := Ideal.ofBits .f32 0x3F800000#32
/-- The f32 pattern of `0.0`, the floor of the rectifier. -/
def zero32 : EReal := Ideal.ofBits .f32 0x00000000#32

/-- Row `p` of a two-axis array, as a function of the column. -/
def rows {a b : ℕ} (x : (⟨2, ![a, b]⟩ : Shape).Idx → EReal) (p : Fin a) (k : Fin b) : EReal := x (ix2 p k)
/-- A one-axis array as a function of its coordinate. -/
def vec1 {a : ℕ} (x : (⟨1, ![a]⟩ : Shape).Idx → EReal) (d : Fin a) : EReal := x (ix1 d)
/-- A two-axis array from its entries by row and column. -/
def arr2 {a b : ℕ} (f : Fin a → Fin b → EReal) : (⟨2, ![a, b]⟩ : Shape).Idx → EReal := fun y => f (y 0) (y 1)

theorem arr2_ix2 {a b : ℕ} (f : Fin a → Fin b → EReal) (p : Fin a) (q : Fin b) : arr2 f (ix2 p q) = f p q := rfl

variable {B : ℕ}

/-- `x·Wᵀ + b` at output coordinate `d`. -/
def projRow (x : Fin 128 → EReal) (W : Fin 128 → Fin 128 → EReal) (b : Fin 128 → EReal) (d : Fin 128) : EReal :=
  (∑ k : Fin 128, x k * W d k) + b d

/-- The row divided by its Euclidean length, the length floored at `ε`. -/
def unitRow (x : Fin 128 → EReal) (k : Fin 128) : EReal :=
  Ideal.div (x k) (max (Ideal.sqrt (∑ k' : Fin 128, x k' * x k')) eps)

/-- The inner product of a row with row `j` of `M`. -/
def dotRows (a : Fin 128 → EReal) (M : Fin B → Fin 128 → EReal) (j : Fin B) : EReal := ∑ k : Fin 128, a k * M j k

/-- The maximum of a row of scores, folded from `-∞`. -/
def rowMax (s : Fin B → EReal) : EReal := (Finset.univ : Finset (Fin B)).fold max negInf s

/-- The softmax numerator `exp (s j - max s)`. -/
def softNum (s : Fin B → EReal) (j : Fin B) : EReal := Ideal.exp (s j - rowMax s)

/-- The softmax denominator. -/
def rowSum (s : Fin B → EReal) : EReal := ∑ j : Fin B, softNum s j

/-- The rectified cosine similarity of the query row with key `j`'s unit row. -/
def cosRelu (x : Fin 128 → EReal) (DN : Fin B → Fin 128 → EReal) (j : Fin B) : EReal :=
  max (dotRows (unitRow x) DN j) zero32

/-- The scores of a query row against the keys: its projection's inner products with the key rows. -/
def scores (x : Fin 128 → EReal) (K : Fin B → Fin 128 → EReal) (Wq : Fin 128 → Fin 128 → EReal) (bq : Fin 128 → EReal) : Fin B → EReal :=
  dotRows (projRow x Wq bq) K

/-- The result as the fused program writes it: `(c * p) * (1 / l)`. -/
def fusedK (x : Fin 128 → EReal) (K DN : Fin B → Fin 128 → EReal) (Wq : Fin 128 → Fin 128 → EReal) (bq : Fin 128 → EReal) (j : Fin B) : EReal :=
  (cosRelu x DN j * softNum (scores x K Wq bq) j) * Ideal.div one32 (rowSum (scores x K Wq bq))

/-- The result as the plain program writes it: `c * (p / l)`. -/
def fusedR (x : Fin 128 → EReal) (K DN : Fin B → Fin 128 → EReal) (Wq : Fin 128 → Fin 128 → EReal) (bq : Fin 128 → EReal) (j : Fin B) : EReal :=
  cosRelu x DN j * Ideal.div (softNum (scores x K Wq bq) j) (rowSum (scores x K Wq bq))

/-- An extended real that is a real number. -/
def IsReal (x : EReal) : Prop := ∃ r : ℝ, x = (r : EReal)

end Cert.AttnCos

end
-- ==== Proof.Result.lean ====
/-
  The whole result before flattening, as a function of the six argument arrays (queries, data, `Wq`, `bq`, `Wk`, `bk`):
  row `p`, key `j` holds `fusedK` of query row `p` against the key rows `projRow (data row)` and the unit key rows
  `unitRow (data row)`.
-/
import proofs.«430612_j72215580115002_3_alg».proof.Proof.Spec

noncomputable section

namespace Cert.AttnCos

open Idealize.ShloMosaic Idealize.ShloMosaic.ValueIdx

/-- The rows of an array given by its entries are those entries. -/
theorem rows_arr2 {a b : ℕ} (f : Fin a → Fin b → EReal) : rows (arr2 f) = f := rfl

/-- The key rows: the data rows projected by `Wk`, `bk`. -/
def keyRows (x1 : (⟨2, ![8192, 128]⟩ : Shape).Idx → EReal) (x4 : (⟨2, ![128, 128]⟩ : Shape).Idx → EReal)
    (x5 : (⟨1, ![128]⟩ : Shape).Idx → EReal) : Fin 8192 → Fin 128 → EReal :=
  fun j => projRow (rows x1 j) (rows x4) (vec1 x5)

/-- The unit key rows: the data rows scaled to unit length. -/
def unitKeyRows (x1 : (⟨2, ![8192, 128]⟩ : Shape).Idx → EReal) : Fin 8192 → Fin 128 → EReal :=
  fun j => unitRow (rows x1 j)

/-- The whole result before flattening, in the fused program's form. -/
def resultK (x0 : (⟨2, ![4096, 128]⟩ : Shape).Idx → EReal) (x1 : (⟨2, ![8192, 128]⟩ : Shape).Idx → EReal)
    (x2 : (⟨2, ![128, 128]⟩ : Shape).Idx → EReal) (x3 : (⟨1, ![128]⟩ : Shape).Idx → EReal)
    (x4 : (⟨2, ![128, 128]⟩ : Shape).Idx → EReal) (x5 : (⟨1, ![128]⟩ : Shape).Idx → EReal) :
    (⟨2, ![4096, 8192]⟩ : Shape).Idx → EReal :=
  arr2 fun p j => fusedK (rows x0 p) (keyRows x1 x4 x5) (unitKeyRows x1) (rows x2) (vec1 x3) j

end Cert.AttnCos

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KeysValue.lean ====
/-
  The first of the two passes, read as mathematics: from the key rows `data` (8192 rows of 128 entries), the weights
  `Wk` and the bias `bk`, it leaves two arrays of the same shape as `data`:
    * the projected keys, row `j` being `projRow (data j) Wk bk`, that is `data j · Wkᵀ + bk`;
    * the unit keys, row `j` being `unitRow (data j)`, the row divided by its length floored at `ε`.
  The pass works on blocks of 1024 consecutive rows; block `t` holds rows `1024 t … 1024 t + 1023`, each output block
  depends only on the same rows of `data` (and on the whole of `Wk`, `bk`), and the eight blocks tile the 8192 rows:
  row `j` lies in block `j / 1024` at position `j % 1024`.
-/
import proofs.«430612_j72215580115002_3_alg».proof.Proof.Gen.KernelIdeal.Frame
import proofs.«430612_j72215580115002_3_alg».proof.Proof.Spec
import proofs.«430612_j72215580115002_3_alg».proof.Proof.LibKeepdims
import Idealize.ShloMosaic.Lib.ValueLayout

set_option maxRecDepth 16384

noncomputable section

namespace Cert.KernelIdeal.KeysValue

open Idealize.ShloMosaic Idealize.ShloMosaic.TcCoe Idealize.SL.Sem Idealize.ShloMosaic.ValueIdx
open Cert.KernelIdeal Cert.KernelIdeal.Gen Cert.AttnCos

/-! ## One block: what the pass computes from 1024 rows, entry by entry -/

/-- The product's left operand index on its free axis is the output's row. -/
theorem lhs_keys_0 (i : S1024x128.Idx) (q : dot_S1024x128_S128x128_S1024x128_1_1_0_0_n_n.contr.Idx) :
    (dot_S1024x128_S128x128_S1024x128_1_1_0_0_n_n.lhsIdx i q 0).val = (i 0).val := by
  unfold DotDims.lhsIdx
  rw [dif_neg (show ¬(0 : Fin S1024x128.rank) ∈ dot_S1024x128_S128x128_S1024x128_1_1_0_0_n_n.lhsBatch by decide), dif_pos (show (0 : Fin S1024x128.rank) ∈ dot_S1024x128_S128x128_S1024x128_1_1_0_0_n_n.lhsNonContracting by decide)]
  rfl
/-- On its summed axis it is the summation position. -/
theorem lhs_keys_1 (i : S1024x128.Idx) (q : dot_S1024x128_S128x128_S1024x128_1_1_0_0_n_n.contr.Idx) :
    (dot_S1024x128_S128x128_S1024x128_1_1_0_0_n_n.lhsIdx i q 1).val = (q ⟨0, by decide⟩).val :=
  dot_S1024x128_S128x128_S1024x128_1_1_0_0_n_n.lhsIdx_val_of_single rfl i q
/-- The right operand (the weights, not transposed) is read at the output's column on its free axis, -/
theorem rhs_keys_0 (i : S1024x128.Idx) (q : dot_S1024x128_S128x128_S1024x128_1_1_0_0_n_n.contr.Idx) :
    (dot_S1024x128_S128x128_S1024x128_1_1_0_0_n_n.rhsIdx i q 0).val = (i 1).val := by
  unfold DotDims.rhsIdx
  rw [dif_neg (show ¬(0 : Fin S128x128.rank) ∈ dot_S1024x128_S128x128_S1024x128_1_1_0_0_n_n.rhsBatch by decide), dif_pos (show (0 : Fin S128x128.rank) ∈ dot_S1024x128_S128x128_S1024x128_1_1_0_0_n_n.rhsNonContracting by decide)]
  rfl
/-- and at the summation position on its second axis: the product is `x · Wᵀ`. -/
theorem rhs_keys_1 (i : S1024x128.Idx) (q : dot_S1024x128_S128x128_S1024x128_1_1_0_0_n_n.contr.Idx) :
    (dot_S1024x128_S128x128_S1024x128_1_1_0_0_n_n.rhsIdx i q 1).val = (q ⟨0, by decide⟩).val :=
  dot_S1024x128_S128x128_S1024x128_1_1_0_0_n_n.rhsIdx_val_of_single rfl i q

/-- The product of a block of rows with the transposed weights, from the zero accumulator, at row `r` and column `d`:
    the inner product of row `r` with row `d` of the weights. -/
theorem keysDot_apply (x0 : FVec Ideal S1024x128 .f32) (x1 : FVec Ideal S128x128 .f32) (r : Fin 1024) (d : Fin 128) :
    matmul dot_S1024x128_S128x128_S1024x128_1_1_0_0_n_n none x0 x1 (constant (F := Ideal) S1024x128 .f32 0x00000000#32) (ix2 r d)
      = ∑ k : Fin 128, x0 (ix2 r k) * x1 (ix2 d k) := by
  simp only [matmul]
  rw [Ideal.matmul_constant_zero_apply, ← Equiv.sum_comp (contrEquiv1 dot_S1024x128_S128x128_S1024x128_1_1_0_0_n_n 128 rfl rfl).symm]
  refine Finset.sum_congr rfl fun k _ => ?_
  have hk := contrEquiv1_symm_val dot_S1024x128_S128x128_S1024x128_1_1_0_0_n_n 128 rfl rfl k
  have el : dot_S1024x128_S128x128_S1024x128_1_1_0_0_n_n.lhsIdx (ix2 r d) ((contrEquiv1 dot_S1024x128_S128x128_S1024x128_1_1_0_0_n_n 128 rfl rfl).symm k) = ix2 r k := funext fun a => Fin.ext (by
    match a with
    | ⟨0, _⟩ => exact lhs_keys_0 _ _
    | ⟨1, _⟩ => exact (lhs_keys_1 _ _).trans hk)
  have er : dot_S1024x128_S128x128_S1024x128_1_1_0_0_n_n.rhsIdx (ix2 r d) ((contrEquiv1 dot_S1024x128_S128x128_S1024x128_1_1_0_0_n_n 128 rfl rfl).symm k) = ix2 d k := funext fun a => Fin.ext (by
    match a with
    | ⟨0, _⟩ => exact rhs_keys_0 _ _
    | ⟨1, _⟩ => exact (rhs_keys_1 _ _).trans hk)
  rw [el, er]

/-- The projected block at row `r`, column `d`: the affine projection of row `r`. -/
theorem keysPayload_apply (x0 : Vec Ideal S1024x128 .f32) (x1 : Vec Ideal S128x128 .f32) (x3 : Vec Ideal S128 .f32)
    (r : Fin 1024) (d : Fin 128) :
    k0_pay1 (F := Ideal) x0 x1 x3 (ix2 r d) = projRow (rows x0 r) (rows x1) (vec1 x3) d := by
  unfold k0_pay1 projRow rows vec1
  refine (addf_apply _ _ (ix2 r d)).trans ?_
  refine congrArg₂ (· + ·) (keysDot_apply x0 x1 r d) ?_
  refine (broadcastTo_1b_ab_apply _ broadcasts_S1x128_S1024x128 r d).trans ?_
  exact shapeCast_a_1a_apply x3 shapeCasts_S128_S1x128 0 d

/-- The unit block at row `r`, column `k`: row `r` divided by its floored length. -/
theorem unitPayload_apply (x0 : Vec Ideal S1024x128 .f32) (r : Fin 1024) (k : Fin 128) :
    k0_pay2 (F := Ideal) x0 (ix2 r k) = unitRow (rows x0 r) k := by
  unfold k0_pay2 unitRow rows eps
  refine (truncf_apply _ bitsLt_bf16_f32 (ix2 r k)).trans ?_
  refine (divf_apply _ _ (ix2 r k)).trans ?_
  refine congrArg (Ideal.div (x0 (ix2 r k))) ?_
  refine (Keepdims.broadcastTo_a1_ab_apply _ broadcasts_S1024x1_S1024x128 r k).trans ?_
  refine (maximumf_apply _ _ (ix2 r (0 : Fin 1))).trans ?_
  refine congrArg₂ max ?_ rfl
  show Ideal.sqrt (shapeCast S1024x1 _ shapeCasts_S1024_S1024x1 (ix2 r (0 : Fin 1))) = _
  refine congrArg Ideal.sqrt ?_
  refine (Keepdims.shapeCast_a_a1_apply _ shapeCasts_S1024_S1024x1 r 0).trans ?_
  exact Keepdims.laneSum_apply (mulf x0 x0) 0x00000000#32 reduces_S1024x128_S1024 (.inl rfl) rfl r

/-! ## From blocks to arrays -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- Where the blocks sit: at point `t` the block of `data` and the two output blocks are block `t` along the rows,
    and the weights and the bias are taken whole. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the block of `data` at point `t` is row `1024 t + p` of `data`. -/
theorem dataBlock_apply (c : Dev nD) (t : Fin cfg0.N) (x : S1024x128.Idx) (k : S8192x128.Idx)
    (hk0 : (k 0).val = 1024 * t.val + (x 0).val) (hk1 : (k 1).val = (x 1).val) :
    (iblk0 V c 0 t : Vec Ideal S1024x128 .f32) x = (V c main_arg1 : S8192x128.Idx → Elt Ideal .f32) k := by
  obtain ⟨e0, e1, -⟩ := block_positions t
  unfold iblk0
  rw [View.read_apply]
  show V c main_arg1 _ = V c main_arg1 _
  congr 1
  funext a
  apply Fin.ext
  match a with
  | ⟨0, _⟩ => show win0_0.index t 0 * 1024 + 1 * (x 0).val = (k 0).val; rw [e0, hk0]; omega
  | ⟨1, _⟩ => show win0_0.index t 1 * 128 + 1 * (x 1).val = (k 1).val; rw [e1, hk1]; omega

/-- The weights' block at any point is the weights. -/
theorem weightBlock_eq (c : Dev nD) (t : Fin cfg0.N) :
    (iblk0 V c 1 t : Vec Ideal S128x128 .f32) = (V c main_arg4 : S128x128.Idx → Elt Ideal .f32) := by
  obtain ⟨-, -, e0, e1, -⟩ := block_positions t
  funext x
  unfold iblk0
  rw [View.read_apply]
  show V c main_arg4 _ = V c main_arg4 _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- The bias's block at any point is the bias. -/
theorem biasBlock_eq (c : Dev nD) (t : Fin cfg0.N) :
    (iblk0 V c 2 t : Vec Ideal S128 .f32) = (V c main_arg5 : S128.Idx → Elt Ideal .f32) := by
  obtain ⟨-, -, -, -, e0, -⟩ := block_positions t
  funext x
  unfold iblk0
  rw [View.read_apply]
  show V c main_arg5 _ = V c main_arg5 _
  congr 1
  funext a
  apply Fin.ext
  match a with
  | ⟨0, _⟩ => show win0_2.index t 0 * 128 + 1 * (x 0).val = (x 0).val; rw [e0]; omega

/-- What point `t` writes back to the projected keys is block `t` of the array of projected rows. -/
theorem keys_flushed (c : Dev nD) (t : Fin cfg0.N) :
    (dat0 (F := Ideal) V c).flushed 3 t
      = ((cfg0.win 3).blk t).view.read (Elt Ideal)
          (arr2 (fun j d => projRow (rows (V c main_arg1) j) (rows (V c main_arg4)) (vec1 (V c main_arg5)) d)) := by
  show (cfg0.win 3).cut (grid0.coords t) ((dat0 (F := Ideal) V c).after 3 t) = _
  rw [after0_3]
  unfold out0_3
  rw [View.canon_unit_zero zeros2]
  simp only [View.ld_unit_zero (S := S1024x128) zeros2, View.ld_unit_zero (S := S128x128) zeros2, View.ld_unit_zero (S := S128) zeros1]
  obtain ⟨-, -, -, -, -, e0, e1, -⟩ := block_positions t
  have ht : t.val < grid0.N := t.isLt
  rw [N_0] at ht
  refine funext fun (y : S1024x128.Idx) => ?_
  obtain ⟨r, d, rfl⟩ : ∃ (r : Fin 1024) (d : Fin 128), y = ix2 r d := ⟨y 0, y 1, eq_ix2 y⟩
  have hemb : ((cfg0.win 3).blk t).view.emb (ix2 r d) = (ix2 ⟨1024 * t.val + r.val, by omega⟩ d : S8192x128.Idx) := by
    funext a; apply Fin.ext
    match a with
    | ⟨0, _⟩ => show win0_3.index t 0 * 1024 + 1 * r.val = 1024 * t.val + r.val; rw [e0]; omega
    | ⟨1, _⟩ => show win0_3.index t 1 * 128 + 1 * d.val = d.val; rw [e1]; omega
  show k0_pay1 (F := Ideal) (iblk0 V c 0 t) (iblk0 V c 1 t) (iblk0 V c 2 t) (ix2 r d)
    = arr2 (fun j d => projRow (rows (V c main_arg1) j) (rows (V c main_arg4)) (vec1 (V c main_arg5)) d) (((cfg0.win 3).blk t).view.emb (ix2 r d))
  rw [hemb, arr2_ix2]
  refine (keysPayload_apply (iblk0 V c 0 t) (iblk0 V c 1 t) (iblk0 V c 2 t) r d).trans ?_
  rw [weightBlock_eq V c t, biasBlock_eq V c t]
  refine congrArg (fun x => projRow x (rows (V c main_arg4)) (vec1 (V c main_arg5)) d) ?_
  funext k
  exact dataBlock_apply V c t (ix2 r k) (ix2 ⟨1024 * t.val + r.val, by omega⟩ k) rfl rfl

/-- What point `t` writes back to the unit keys is block `t` of the array of unit rows. -/
theorem unitKeys_flushed (c : Dev nD) (t : Fin cfg0.N) :
    (dat0 (F := Ideal) V c).flushed 4 t
      = ((cfg0.win 4).blk t).view.read (Elt Ideal) (arr2 (fun j k => unitRow (rows (V c main_arg1) j) k)) := by
  show (cfg0.win 4).cut (grid0.coords t) ((dat0 (F := Ideal) V c).after 4 t) = _
  rw [after0_4]
  unfold out0_4
  rw [View.canon_unit_zero zeros2]
  simp only [View.ld_unit_zero (S := S1024x128) zeros2]
  obtain ⟨-, -, -, -, -, -, -, e0, e1⟩ := block_positions t
  have ht : t.val < grid0.N := t.isLt
  rw [N_0] at ht
  refine funext fun (y : S1024x128.Idx) => ?_
  obtain ⟨r, k, rfl⟩ : ∃ (r : Fin 1024) (k : Fin 128), y = ix2 r k := ⟨y 0, y 1, eq_ix2 y⟩
  have hemb : ((cfg0.win 4).blk t).view.emb (ix2 r k) = (ix2 ⟨1024 * t.val + r.val, by omega⟩ k : S8192x128.Idx) := by
    funext a; apply Fin.ext
    match a with
    | ⟨0, _⟩ => show win0_4.index t 0 * 1024 + 1 * r.val = 1024 * t.val + r.val; rw [e0]; omega
    | ⟨1, _⟩ => show win0_4.index t 1 * 128 + 1 * k.val = k.val; rw [e1]; omega
  show k0_pay2 (F := Ideal) (iblk0 V c 0 t) (ix2 r k)
    = arr2 (fun j k => unitRow (rows (V c main_arg1) j) k) (((cfg0.win 4).blk t).view.emb (ix2 r k))
  rw [hemb, arr2_ix2]
  refine (unitPayload_apply (iblk0 V c 0 t) r k).trans ?_
  refine congrArg (fun x => unitRow x k) ?_
  funext k'
  exact dataBlock_apply V c t (ix2 r k') (ix2 ⟨1024 * t.val + r.val, by omega⟩ k') rfl rfl

/-- An entry of the projected keys lies in point `t`'s block when its row is among rows `1024 t … 1024 t + 1023`. -/
theorem keys_mem_block (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v0_0).slice (win0_3.rect t)).set ↔ _
  rw [View.set_slice_whole, Rect.mem_set_unit]
  exact Iff.rfl

/-- The same for the unit keys. -/
theorem unitKeys_mem_block (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v0_1).slice (win0_4.rect t)).set ↔ _
  rw [View.set_slice_whole, Rect.mem_set_unit]
  exact Iff.rfl

/-- The point whose blocks hold row `j`: `j / 1024`. -/
theorem point_of_row (j : Nat) (hj : j < 8192) : ∃ t : Fin cfg0.N, t.val = j / 1024 :=
  ⟨⟨j / 1024, by show j / 1024 < grid0.N; rw [N_0]; omega⟩, rfl⟩

/-- Every entry of the projected keys is written by the point of its row. -/
theorem keys_cover (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  obtain ⟨t, ht⟩ := point_of_row (i 0).val hi0
  obtain ⟨-, -, -, -, -, e0, e1, -⟩ := block_positions t
  refine ⟨t, flush0_3 t, ?_⟩
  rw [keys_mem_block]
  intro a
  match a with
  | ⟨0, _⟩ => show win0_3.index t 0 * 1024 ≤ (i 0).val ∧ (i 0).val < win0_3.index t 0 * 1024 + 1024; rw [e0, ht]; omega
  | ⟨1, _⟩ => show win0_3.index t 1 * 128 ≤ (i 1).val ∧ (i 1).val < win0_3.index t 1 * 128 + 128; rw [e1]; omega

/-- Every entry of the unit keys is written by the point of its row. -/
theorem unitKeys_cover (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  obtain ⟨t, ht⟩ := point_of_row (i 0).val hi0
  obtain ⟨-, -, -, -, -, -, -, e0, e1⟩ := block_positions t
  refine ⟨t, flush0_4 t, ?_⟩
  rw [unitKeys_mem_block]
  intro a
  match a with
  | ⟨0, _⟩ => show win0_4.index t 0 * 1024 ≤ (i 0).val ∧ (i 0).val < win0_4.index t 0 * 1024 + 1024; rw [e0, ht]; omega
  | ⟨1, _⟩ => show win0_4.index t 1 * 128 ≤ (i 1).val ∧ (i 1).val < win0_4.index t 1 * 128 + 128; rw [e1]; omega

/-! ## The two arrays after the pass -/

/-- The projected keys after the pass: row `j` is the affine projection of row `j` of `data`. -/
theorem keys_final (c : Dev nD) :
    (dat0 (F := Ideal) V c).arrAt 3 cfg0.N
      = arr2 (fun j d => projRow (rows (V c main_arg1) j) (rows (V c main_arg4)) (vec1 (V c main_arg5)) d) :=
  (dat0 (F := Ideal) V c).arrAt_eq_of_cover 3 _ (fun t _ => keys_flushed V c t) keys_cover

/-- The unit keys after the pass: row `j` is row `j` of `data` scaled to unit length. -/
theorem unitKeys_final (c : Dev nD) :
    (dat0 (F := Ideal) V c).arrAt 4 cfg0.N
      = arr2 (fun j k => unitRow (rows (V c main_arg1) j) k) :=
  (dat0 (F := Ideal) V c).arrAt_eq_of_cover 4 _ (fun t _ => unitKeys_flushed V c t) unitKeys_cover

end Cert.KernelIdeal.KeysValue

end
-- ==== Proof.FusedValue.lean ====
/-
  The fused attention-cosine body, read at one entry.

  For the loaded blocks — a block of 256 query rows, the weight, the bias, the key rows and the unit key rows — the
  value the body stores at row `r` of the block and key `j` is the specification's fused form
  `(relu (cosine) * exp (s j - max s)) * (1 / ∑ exp (s - max s))` of that query row, with `s` the row's projected
  inner products with the keys. The proof names the body's stages (projection, scores, softmax numerators, the
  reciprocal row sum, unit rows, rectified cosines), reads each at an index — a contraction as the inner product of two
  rows, a lane maximum as the fold of `max` over the row, a lane sum as the row's sum, a column broadcast as the
  column's entry — and multiplies them.
-/
import proofs.«430612_j72215580115002_3_alg».proof.Proof.Gen.KernelIdeal.Frame
import proofs.«430612_j72215580115002_3_alg».proof.Proof.Spec
import proofs.«430612_j72215580115002_3_alg».proof.Proof.LibKeepdims
import Idealize.ShloMosaic.Lib.ValueLayout

set_option maxRecDepth 16384

noncomputable section

namespace Cert.KernelIdeal.FusedValue

open Idealize.ShloMosaic Idealize.ShloMosaic.TcCoe Idealize.SL.Sem Idealize.ShloMosaic.ValueIdx
open Idealize.ShloMosaic.Keepdims
open Cert.KernelIdeal Cert.KernelIdeal.Gen Cert.AttnCos

/-! ## The two contractions, read at an index

Both contract axis 1 of the left operand with axis 1 of the right one: entry `(r, c)` of the product is the inner
product of row `r` of the left operand with row `c` of the right operand. -/

theorem projL_0 (i : S256x128.Idx) (q : dot_S256x128_S128x128_S256x128_1_1_0_0_n_n.contr.Idx) :
    (dot_S256x128_S128x128_S256x128_1_1_0_0_n_n.lhsIdx i q 0).val = (i 0).val := by
  unfold DotDims.lhsIdx
  rw [dif_neg (show ¬(0 : Fin S256x128.rank) ∈ dot_S256x128_S128x128_S256x128_1_1_0_0_n_n.lhsBatch by decide), dif_pos (show (0 : Fin S256x128.rank) ∈ dot_S256x128_S128x128_S256x128_1_1_0_0_n_n.lhsNonContracting by decide)]
  rfl
theorem projL_1 (i : S256x128.Idx) (q : dot_S256x128_S128x128_S256x128_1_1_0_0_n_n.contr.Idx) :
    (dot_S256x128_S128x128_S256x128_1_1_0_0_n_n.lhsIdx i q 1).val = (q ⟨0, by decide⟩).val :=
  dot_S256x128_S128x128_S256x128_1_1_0_0_n_n.lhsIdx_val_of_single rfl i q
theorem projR_0 (i : S256x128.Idx) (q : dot_S256x128_S128x128_S256x128_1_1_0_0_n_n.contr.Idx) :
    (dot_S256x128_S128x128_S256x128_1_1_0_0_n_n.rhsIdx i q 0).val = (i 1).val := by
  unfold DotDims.rhsIdx
  rw [dif_neg (show ¬(0 : Fin S128x128.rank) ∈ dot_S256x128_S128x128_S256x128_1_1_0_0_n_n.rhsBatch by decide), dif_pos (show (0 : Fin S128x128.rank) ∈ dot_S256x128_S128x128_S256x128_1_1_0_0_n_n.rhsNonContracting by decide)]
  rfl
theorem projR_1 (i : S256x128.Idx) (q : dot_S256x128_S128x128_S256x128_1_1_0_0_n_n.contr.Idx) :
    (dot_S256x128_S128x128_S256x128_1_1_0_0_n_n.rhsIdx i q 1).val = (q ⟨0, by decide⟩).val :=
  dot_S256x128_S128x128_S256x128_1_1_0_0_n_n.rhsIdx_val_of_single rfl i q

/-- The `[256,128] × [128,128]` product into the zero splat, at `(r, d)`: row `r` of the left operand against row `d` of
    the right one. -/
theorem proj_matmul_apply {φ₁ φ₂ : FTy} (x : FVec Ideal S256x128 φ₁) (w : FVec Ideal S128x128 φ₂) (r : Fin 256) (d : Fin 128) :
    matmul dot_S256x128_S128x128_S256x128_1_1_0_0_n_n none x w (constant (F := Ideal) S256x128 .f32 0x00000000#32) (ix2 r d)
      = ∑ k : Fin 128, x (ix2 r k) * w (ix2 d k) := by
  refine (Ideal.matmul_constant_zero_apply dot_S256x128_S128x128_S256x128_1_1_0_0_n_n none x w (ix2 r d)).trans ?_
  rw [← Equiv.sum_comp (contrEquiv1 dot_S256x128_S128x128_S256x128_1_1_0_0_n_n 128 rfl rfl).symm]
  refine Finset.sum_congr rfl fun k _ => ?_
  have hk := contrEquiv1_symm_val dot_S256x128_S128x128_S256x128_1_1_0_0_n_n 128 rfl rfl k
  have el : dot_S256x128_S128x128_S256x128_1_1_0_0_n_n.lhsIdx (ix2 r d) ((contrEquiv1 dot_S256x128_S128x128_S256x128_1_1_0_0_n_n 128 rfl rfl).symm k) = ix2 r k := funext fun a => Fin.ext (by
    match a with
    | ⟨0, _⟩ => exact projL_0 _ _
    | ⟨1, _⟩ => exact (projL_1 _ _).trans hk)
  have er : dot_S256x128_S128x128_S256x128_1_1_0_0_n_n.rhsIdx (ix2 r d) ((contrEquiv1 dot_S256x128_S128x128_S256x128_1_1_0_0_n_n 128 rfl rfl).symm k) = ix2 d k := funext fun a => Fin.ext (by
    match a with
    | ⟨0, _⟩ => exact projR_0 _ _
    | ⟨1, _⟩ => exact (projR_1 _ _).trans hk)
  rw [el, er]

theorem keysL_0 (i : S256x8192.Idx) (q : dot_S256x128_S8192x128_S256x8192_1_1_0_0_n_n.contr.Idx) :
    (dot_S256x128_S8192x128_S256x8192_1_1_0_0_n_n.lhsIdx i q 0).val = (i 0).val := by
  unfold DotDims.lhsIdx
  rw [dif_neg (show ¬(0 : Fin S256x128.rank) ∈ dot_S256x128_S8192x128_S256x8192_1_1_0_0_n_n.lhsBatch by decide), dif_pos (show (0 : Fin S256x128.rank) ∈ dot_S256x128_S8192x128_S256x8192_1_1_0_0_n_n.lhsNonContracting by decide)]
  rfl
theorem keysL_1 (i : S256x8192.Idx) (q : dot_S256x128_S8192x128_S256x8192_1_1_0_0_n_n.contr.Idx) :
    (dot_S256x128_S8192x128_S256x8192_1_1_0_0_n_n.lhsIdx i q 1).val = (q ⟨0, by decide⟩).val :=
  dot_S256x128_S8192x128_S256x8192_1_1_0_0_n_n.lhsIdx_val_of_single rfl i q
theorem keysR_0 (i : S256x8192.Idx) (q : dot_S256x128_S8192x128_S256x8192_1_1_0_0_n_n.contr.Idx) :
    (dot_S256x128_S8192x128_S256x8192_1_1_0_0_n_n.rhsIdx i q 0).val = (i 1).val := by
  unfold DotDims.rhsIdx
  rw [dif_neg (show ¬(0 : Fin S8192x128.rank) ∈ dot_S256x128_S8192x128_S256x8192_1_1_0_0_n_n.rhsBatch by decide), dif_pos (show (0 : Fin S8192x128.rank) ∈ dot_S256x128_S8192x128_S256x8192_1_1_0_0_n_n.rhsNonContracting by decide)]
  rfl
theorem keysR_1 (i : S256x8192.Idx) (q : dot_S256x128_S8192x128_S256x8192_1_1_0_0_n_n.contr.Idx) :
    (dot_S256x128_S8192x128_S256x8192_1_1_0_0_n_n.rhsIdx i q 1).val = (q ⟨0, by decide⟩).val :=
  dot_S256x128_S8192x128_S256x8192_1_1_0_0_n_n.rhsIdx_val_of_single rfl i q

/-- The `[256,128] × [8192,128]` product into the zero splat, at `(r, j)`: row `r` of the left operand against row `j`
    of the right one, at any two operand formats. -/
theorem keys_matmul_apply {φ₁ φ₂ : FTy} (x : FVec Ideal S256x128 φ₁) (w : FVec Ideal S8192x128 φ₂) (r : Fin 256) (j : Fin 8192) :
    matmul dot_S256x128_S8192x128_S256x8192_1_1_0_0_n_n none x w (constant (F := Ideal) S256x8192 .f32 0x00000000#32) (ix2 r j)
      = ∑ k : Fin 128, x (ix2 r k) * w (ix2 j k) := by
  refine (Ideal.matmul_constant_zero_apply dot_S256x128_S8192x128_S256x8192_1_1_0_0_n_n none x w (ix2 r j)).trans ?_
  rw [← Equiv.sum_comp (contrEquiv1 dot_S256x128_S8192x128_S256x8192_1_1_0_0_n_n 128 rfl rfl).symm]
  refine Finset.sum_congr rfl fun k _ => ?_
  have hk := contrEquiv1_symm_val dot_S256x128_S8192x128_S256x8192_1_1_0_0_n_n 128 rfl rfl k
  have el : dot_S256x128_S8192x128_S256x8192_1_1_0_0_n_n.lhsIdx (ix2 r j) ((contrEquiv1 dot_S256x128_S8192x128_S256x8192_1_1_0_0_n_n 128 rfl rfl).symm k) = ix2 r k := funext fun a => Fin.ext (by
    match a with
    | ⟨0, _⟩ => exact keysL_0 _ _
    | ⟨1, _⟩ => exact (keysL_1 _ _).trans hk)
  have er : dot_S256x128_S8192x128_S256x8192_1_1_0_0_n_n.rhsIdx (ix2 r j) ((contrEquiv1 dot_S256x128_S8192x128_S256x8192_1_1_0_0_n_n 128 rfl rfl).symm k) = ix2 j k := funext fun a => Fin.ext (by
    match a with
    | ⟨0, _⟩ => exact keysR_0 _ _
    | ⟨1, _⟩ => exact (keysR_1 _ _).trans hk)
  rw [el, er]

/-! ## A row maximum -/

/-- At the extended reals a lane maximum of an `[a, b]` array over its second axis reads at row `r` as the fold of `max`,
    from the accumulator's value, over the row. -/
theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  show (Finset.univ : Finset (Fin b)).fold max (Ideal.ofBits φ acc) (fun k => src (h.lift (ix1 r) k)) = _
  refine congrArg (fun f : Fin b → EReal => (Finset.univ : Finset (Fin b)).fold max (Ideal.ofBits φ acc) f) (funext fun k => ?_)
  refine congrArg src (funext fun ax => Fin.ext ?_)
  rw [Shape.Reduces.lift_val]
  match ax with
  | ⟨0, _⟩ => rfl
  | ⟨1, _⟩ => rfl

/-! ## The payload, stage by stage

The body's value is named here one stage at a time, each stage a vector expression of the same operations the body
applies, and each read at an index as the piece of the specification it computes. -/

section Stages
variable (v0 : FVec Ideal S256x128 .f32) (v1 : FVec Ideal S128x128 .f32) (v3 : FVec Ideal S128 .f32)
  (v7 : FVec Ideal S8192x128 .f32) (v28 : FVec Ideal S8192x128 .bf16)

/-- The projected query block: the block times the weight's transpose, plus the bias along every row. -/
def projV : FVec Ideal S256x128 .f32 :=
  addf (matmul dot_S256x128_S128x128_S256x128_1_1_0_0_n_n none v0 v1 (constant S256x128 .f32 0x00000000#32))
    (broadcastTo S256x128 (shapeCast S1x128 v3 shapeCasts_S128_S1x128) broadcasts_S1x128_S256x128)

theorem projV_apply (r : Fin 256) (d : Fin 128) :
    projV v0 v1 v3 (ix2 r d) = projRow (rows v0 r) (rows v1) (vec1 v3) d := by
  unfold projV
  show matmul dot_S256x128_S128x128_S256x128_1_1_0_0_n_n none v0 v1 (constant (F := Ideal) S256x128 .f32 0x00000000#32) (ix2 r d)
      + broadcastTo S256x128 (shapeCast S1x128 v3 shapeCasts_S128_S1x128) broadcasts_S1x128_S256x128 (ix2 r d) = _
  rw [proj_matmul_apply, broadcastTo_1b_ab_apply, shapeCast_a_1a_apply]
  rfl

/-- The scores of the block's rows against every key row. -/
def scoreV : FVec Ideal S256x8192 .f32 :=
  matmul dot_S256x128_S8192x128_S256x8192_1_1_0_0_n_n none (projV v0 v1 v3)
    (shapeCast S8192x128 v7 shapeCasts_S8192x128_S8192x128) (constant S256x8192 .f32 0x00000000#32)

theorem scoreV_apply (r : Fin 256) (j : Fin 8192) :
    scoreV v0 v1 v3 v7 (ix2 r j) = scores (rows v0 r) (rows v7) (rows v1) (vec1 v3) j := by
  unfold scoreV
  rw [shapeCast_self, keys_matmul_apply]
  show _ = ∑ k : Fin 128, projRow (rows v0 r) (rows v1) (vec1 v3) k * rows v7 j k
  refine Finset.sum_congr rfl fun k _ => ?_
  rw [projV_apply]
  rfl

/-- The softmax numerators of an array of scores: each entry less its row's maximum, exponentiated. -/
def expV (s : FVec Ideal S256x8192 .f32) : FVec Ideal S256x8192 .f32 :=
  exp (subf s (broadcastTo S256x8192
    (shapeCast S256x1 (multiReduction .maximumf [1] S256 s 0xFF800000#32 reduces_S256x8192_S256 (.inl rfl) rfl) shapeCasts_S256_S256x1)
    broadcasts_S256x1_S256x8192))

theorem expV_apply (s : FVec Ideal S256x8192 .f32) (r : Fin 256) (j : Fin 8192) :
    expV s (ix2 r j) = softNum (fun j' => s (ix2 r j')) j := by
  unfold expV
  show Ideal.exp (s (ix2 r j) - broadcastTo S256x8192
    (shapeCast S256x1 (multiReduction .maximumf [1] S256 s 0xFF800000#32 reduces_S256x8192_S256 (.inl rfl) rfl) shapeCasts_S256_S256x1)
    broadcasts_S256x1_S256x8192 (ix2 r j)) = _
  rw [broadcastTo_a1_ab_apply, shapeCast_a_a1_apply]
  exact congrArg (fun m => Ideal.exp (s (ix2 r j) - m))
    (laneMax_apply s 0xFF800000#32 reduces_S256x8192_S256 (.inl rfl) rfl r)

/-- One over each row's sum of numerators, as a column. -/
def recipV (e : FVec Ideal S256x8192 .f32) : FVec Ideal S256x1 .f32 :=
  divf (broadcast S256x1 (Scalar.ofBits (F := Ideal) .f32 0x3F800000#32))
    (shapeCast S256x1 (multiReduction .add [1] S256 e 0x00000000#32 reduces_S256x8192_S256 (.inl rfl) rfl) shapeCasts_S256_S256x1)

theorem recipV_apply (e : FVec Ideal S256x8192 .f32) (r : Fin 256) (u : Fin 1) :
    recipV e (ix2 r u) = Ideal.div one32 (∑ j : Fin 8192, e (ix2 r j)) := by
  unfold recipV
  show Ideal.div (Ideal.ofBits .f32 0x3F800000#32)
    (shapeCast S256x1 (multiReduction .add [1] S256 e 0x00000000#32 reduces_S256x8192_S256 (.inl rfl) rfl) shapeCasts_S256_S256x1 (ix2 r u)) = _
  rw [shapeCast_a_a1_apply]
  exact congrArg (fun m => Ideal.div one32 m)
    (laneSum_apply e 0x00000000#32 reduces_S256x8192_S256 (.inl rfl) rfl r)

/-- The block's rows scaled to unit length, the length floored. -/
def unitV : FVec Ideal S256x128 .bf16 :=
  truncf .bf16 (divf v0 (broadcastTo S256x128
    (maximumf (sqrt (shapeCast S256x1 (multiReduction .add [1] S256 (mulf v0 v0) 0x00000000#32 reduces_S256x128_S256 (.inl rfl) rfl) shapeCasts_S256_S256x1))
      (broadcast S256x1 (Scalar.ofBits (F := Ideal) .f32 0x322BCC77#32)))
    broadcasts_S256x1_S256x128)) bitsLt_bf16_f32

theorem unitV_apply (r : Fin 256) (k : Fin 128) : unitV v0 (ix2 r k) = unitRow (rows v0 r) k := by
  unfold unitV
  show Ideal.div (v0 (ix2 r k)) (broadcastTo S256x128
    (maximumf (sqrt (shapeCast S256x1 (multiReduction .add [1] S256 (mulf v0 v0) 0x00000000#32 reduces_S256x128_S256 (.inl rfl) rfl) shapeCasts_S256_S256x1))
      (broadcast S256x1 (Scalar.ofBits (F := Ideal) .f32 0x322BCC77#32)))
    broadcasts_S256x1_S256x128 (ix2 r k)) = _
  rw [broadcastTo_a1_ab_apply]
  show Ideal.div (v0 (ix2 r k)) (max (Ideal.sqrt
    (shapeCast S256x1 (multiReduction .add [1] S256 (mulf v0 v0) 0x00000000#32 reduces_S256x128_S256 (.inl rfl) rfl) shapeCasts_S256_S256x1 (ix2 r (0 : Fin 1))))
    (Ideal.ofBits .f32 0x322BCC77#32)) = _
  rw [shapeCast_a_a1_apply]
  exact congrArg (fun m => Ideal.div (v0 (ix2 r k)) (max (Ideal.sqrt m) eps))
    (laneSum_apply (mulf v0 v0) 0x00000000#32 reduces_S256x128_S256 (.inl rfl) rfl r)

/-- The rectified cosines of the block's rows with every unit key row. -/
def cosV : FVec Ideal S256x8192 .f32 :=
  maximumf (matmul dot_S256x128_S8192x128_S256x8192_1_1_0_0_n_n none (unitV v0)
      (shapeCast S8192x128 v28 shapeCasts_S8192x128_S8192x128) (constant S256x8192 .f32 0x00000000#32))
    (broadcast S256x8192 (Scalar.ofBits (F := Ideal) .f32 0x00000000#32))

theorem cosV_apply (r : Fin 256) (j : Fin 8192) : cosV v0 v28 (ix2 r j) = cosRelu (rows v0 r) (rows v28) j := by
  unfold cosV
  show max (matmul dot_S256x128_S8192x128_S256x8192_1_1_0_0_n_n none (unitV v0)
      (shapeCast S8192x128 v28 shapeCasts_S8192x128_S8192x128) (constant (F := Ideal) S256x8192 .f32 0x00000000#32) (ix2 r j))
    (Ideal.ofBits .f32 0x00000000#32) = _
  rw [shapeCast_self, keys_matmul_apply]
  show max (∑ k : Fin 128, unitV v0 (ix2 r k) * v28 (ix2 j k)) zero32 = max (∑ k : Fin 128, unitRow (rows v0 r) k * rows v28 j k) zero32
  refine congrArg (fun t => max t zero32) (Finset.sum_congr rfl fun k _ => ?_)
  rw [unitV_apply]
  rfl

/-- The body's value is the product of those stages. -/
theorem pay_eq : k1_pay1 (F := Ideal) v0 v1 v3 v7 v28
    = mulf (mulf (cosV v0 v28) (expV (scoreV v0 v1 v3 v7)))
        (broadcastTo S256x8192 (recipV (expV (scoreV v0 v1 v3 v7))) broadcasts_S256x1_S256x8192) := rfl

/-- THE BODY'S VALUE AT ROW `r` OF THE BLOCK AND KEY `j`: the specification's fused form of that row. -/
theorem pay_apply (r : Fin 256) (j : Fin 8192) :
    k1_pay1 (F := Ideal) v0 v1 v3 v7 v28 (ix2 r j) = fusedK (rows v0 r) (rows v7) (rows v28) (rows v1) (vec1 v3) j := by
  rw [pay_eq]
  show (cosV v0 v28 (ix2 r j) * expV (scoreV v0 v1 v3 v7) (ix2 r j))
      * broadcastTo S256x8192 (recipV (expV (scoreV v0 v1 v3 v7))) broadcasts_S256x1_S256x8192 (ix2 r j) = _
  have hs : (fun j' => scoreV v0 v1 v3 v7 (ix2 r j')) = scores (rows v0 r) (rows v7) (rows v1) (vec1 v3) :=
    funext fun j' => scoreV_apply v0 v1 v3 v7 r j'
  rw [broadcastTo_a1_ab_apply, recipV_apply, cosV_apply]
  simp only [expV_apply, hs]
  rfl

end Stages

/-- The body's value at row `r` of the query block and key `j`, over the loaded blocks as the body reads them: the
    specification's fused form of that row against the keys, the unit keys, the weight and the bias. -/
theorem fusedPayload_apply (v0 : Vec Ideal S256x128 .f32) (v1 : Vec Ideal S128x128 .f32) (v3 : Vec Ideal S128 .f32)
    (v7 : Vec Ideal S8192x128 .f32) (v28 : Vec Ideal S8192x128 .bf16) (r : Fin 256) (j : Fin 8192) :
    k1_pay1 (F := Ideal) v0 v1 v3 v7 v28 (ix2 r j) = fusedK (rows v0 r) (rows v7) (rows v28) (rows v1) (vec1 v3) j :=
  pay_apply v0 v1 v3 v7 v28 r j

end Cert.KernelIdeal.FusedValue

end
-- ==== Proof.FusedArray.lean ====
/-
  The second pass, from blocks to the array. It works on blocks of 256 consecutive query rows: at point `t` it holds rows
  `256 t … 256 t + 255` of the queries and the whole of the keys, the unit keys, `Wq` and `bq`, and it writes rows
  `256 t … 256 t + 255` of the `[4096, 8192]` result. Every row of the result depends only on the same row of the queries,
  so once one block is known entry by entry (the hypothesis `hpay`: row `r`, key `j` of a block is `fusedK` of the block's
  row `r`), the sixteen blocks tile the result: row `p` lies in block `p / 256` at position `p % 256`.
-/
import proofs.«430612_j72215580115002_3_alg».proof.Proof.Gen.KernelIdeal.Frame
import proofs.«430612_j72215580115002_3_alg».proof.Proof.Spec
import Idealize.ShloMosaic.Lib.Pipeline.Value

set_option maxRecDepth 16384

noncomputable section

namespace Cert.KernelIdeal.FusedArray

open Idealize.ShloMosaic Idealize.ShloMosaic.TcCoe Idealize.SL.Sem Idealize.ShloMosaic.ValueIdx
open Cert.KernelIdeal Cert.KernelIdeal.Gen Cert.AttnCos

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- Where the blocks sit: at point `t` the block of queries and the output block are block `t` along the rows; the
    keys, the unit keys, the weights and the bias are taken whole. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `r` of the block of queries at point `t` is row `256 t + r` of the queries. -/
theorem queryBlock_apply (c : Dev nD) (t : Fin cfg1.N) (x : S256x128.Idx) (k : S4096x128.Idx)
    (hk0 : (k 0).val = 256 * t.val + (x 0).val) (hk1 : (k 1).val = (x 1).val) :
    (iblk1 V c 0 t : Vec Ideal S256x128 .f32) x = (V c main_arg0 : S4096x128.Idx → Elt Ideal .f32) k := by
  obtain ⟨e0, e1, -⟩ := block_positions t
  unfold iblk1
  rw [View.read_apply]
  show V c main_arg0 _ = V c main_arg0 _
  congr 1
  funext a
  apply Fin.ext
  match a with
  | ⟨0, _⟩ => show win1_0.index t 0 * 256 + 1 * (x 0).val = (k 0).val; rw [e0, hk0]; omega
  | ⟨1, _⟩ => show win1_0.index t 1 * 128 + 1 * (x 1).val = (k 1).val; rw [e1, hk1]; omega

/-- The keys' block at any point is the keys. -/
theorem keysBlock_eq (c : Dev nD) (t : Fin cfg1.N) :
    (iblk1 V c 1 t : Vec Ideal S8192x128 .f32) = (V c main_v0_0 : S8192x128.Idx → Elt Ideal .f32) := by
  obtain ⟨-, -, e0, e1, -⟩ := block_positions t
  funext x
  unfold iblk1
  rw [View.read_apply]
  show V c main_v0_0 _ = V c main_v0_0 _
  congr 1
  funext a
  apply Fin.ext
  match a with
  | ⟨0, _⟩ => show win1_1.index t 0 * 8192 + 1 * (x 0).val = (x 0).val; rw [e0]; omega
  | ⟨1, _⟩ => show win1_1.index t 1 * 128 + 1 * (x 1).val = (x 1).val; rw [e1]; omega

/-- The unit keys' block at any point is the unit keys. -/
theorem unitKeysBlock_eq (c : Dev nD) (t : Fin cfg1.N) :
    (iblk1 V c 2 t : Vec Ideal S8192x128 .bf16) = (V c main_v0_1 : S8192x128.Idx → Elt Ideal .bf16) := by
  obtain ⟨-, -, -, -, e0, e1, -⟩ := block_positions t
  funext x
  unfold iblk1
  rw [View.read_apply]
  show V c main_v0_1 _ = V c main_v0_1 _
  congr 1
  funext a
  apply Fin.ext
  match a with
  | ⟨0, _⟩ => show win1_2.index t 0 * 8192 + 1 * (x 0).val = (x 0).val; rw [e0]; omega
  | ⟨1, _⟩ => show win1_2.index t 1 * 128 + 1 * (x 1).val = (x 1).val; rw [e1]; omega

/-- The weights' block at any point is the weights. -/
theorem weightBlock_eq (c : Dev nD) (t : Fin cfg1.N) :
    (iblk1 V c 3 t : Vec Ideal S128x128 .f32) = (V c main_arg2 : S128x128.Idx → Elt Ideal .f32) := by
  obtain ⟨-, -, -, -, -, -, e0, e1, -⟩ := block_positions t
  funext x
  unfold iblk1
  rw [View.read_apply]
  show V c main_arg2 _ = V c main_arg2 _
  congr 1
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega

/-- The bias's block at any point is the bias. -/
theorem biasBlock_eq (c : Dev nD) (t : Fin cfg1.N) :
    (iblk1 V c 4 t : Vec Ideal S128 .f32) = (V c main_arg3 : S128.Idx → Elt Ideal .f32) := by
  obtain ⟨-, -, -, -, -, -, -, -, e0, -⟩ := block_positions t
  funext x
  unfold iblk1
  rw [View.read_apply]
  show V c main_arg3 _ = V c main_arg3 _
  congr 1
  funext a
  apply Fin.ext
  match a with
  | ⟨0, _⟩ => show win1_4.index t 0 * 128 + 1 * (x 0).val = (x 0).val; rw [e0]; omega

/-- One block of the result, entry by entry, as a fact about the pass's arithmetic on literal block types. -/
def BlockLaw : Prop :=
  ∀ (v0 : Vec Ideal S256x128 .f32) (v1 : Vec Ideal S128x128 .f32) (v3 : Vec Ideal S128 .f32)
    (v7 : Vec Ideal S8192x128 .f32) (v28 : Vec Ideal S8192x128 .bf16) (r : Fin 256) (j : Fin 8192),
    k1_pay1 (F := Ideal) v0 v1 v3 v7 v28 (ix2 r j) = fusedK (rows v0 r) (rows v7) (rows v28) (rows v1) (vec1 v3) j

/-- What point `t` writes back is block `t` of the array whose row `p` is `fusedK` of query row `p`. -/
theorem fused_flushed (hpay : BlockLaw) (c : Dev nD) (t : Fin cfg1.N) :
    (dat1 (F := Ideal) V c).flushed 5 t
      = ((cfg1.win 5).blk t).view.read (Elt Ideal)
          (arr2 (fun p j => fusedK (rows (V c main_arg0) p) (rows (V c main_v0_0)) (rows (V c main_v0_1))
            (rows (V c main_arg2)) (vec1 (V c main_arg3)) j)) := by
  show (cfg1.win 5).cut (grid1.coords t) ((dat1 (F := Ideal) V c).after 5 t) = _
  rw [after1_5]
  unfold out1_5
  rw [View.canon_unit_zero zeros2]
  simp only [View.ld_unit_zero (S := S256x128) zeros2, View.ld_unit_zero (S := S128x128) zeros2,
    View.ld_unit_zero (S := S128) zeros1, View.ld_unit_zero (S := S8192x128) zeros2]
  obtain ⟨-, -, -, -, -, -, -, -, -, e0, e1⟩ := block_positions t
  have ht : t.val < grid1.N := t.isLt
  rw [N_1] at ht
  refine funext fun (y : S256x8192.Idx) => ?_
  obtain ⟨r, j, rfl⟩ : ∃ (r : Fin 256) (j : Fin 8192), y = ix2 r j := ⟨y 0, y 1, eq_ix2 y⟩
  have hemb : ((cfg1.win 5).blk t).view.emb (ix2 r j) = (ix2 ⟨256 * t.val + r.val, by omega⟩ j : S4096x8192.Idx) := by
    funext a; apply Fin.ext
    match a with
    | ⟨0, _⟩ => show win1_5.index t 0 * 256 + 1 * r.val = 256 * t.val + r.val; rw [e0]; omega
    | ⟨1, _⟩ => show win1_5.index t 1 * 8192 + 1 * j.val = j.val; rw [e1]; omega
  show k1_pay1 (F := Ideal) (iblk1 V c 0 t) (iblk1 V c 3 t) (iblk1 V c 4 t) (iblk1 V c 1 t) (iblk1 V c 2 t) (ix2 r j)
    = arr2 (fun p j => fusedK (rows (V c main_arg0) p) (rows (V c main_v0_0)) (rows (V c main_v0_1))
        (rows (V c main_arg2)) (vec1 (V c main_arg3)) j) (((cfg1.win 5).blk t).view.emb (ix2 r j))
  rw [hemb, arr2_ix2]
  refine (hpay (iblk1 V c 0 t) (iblk1 V c 3 t) (iblk1 V c 4 t) (iblk1 V c 1 t) (iblk1 V c 2 t) r j).trans ?_
  rw [keysBlock_eq V c t, unitKeysBlock_eq V c t, weightBlock_eq V c t, biasBlock_eq V c t]
  refine congrArg (fun x => fusedK x (rows (V c main_v0_0)) (rows (V c main_v0_1)) (rows (V c main_arg2)) (vec1 (V c main_arg3)) j) ?_
  funext k
  exact queryBlock_apply V c t (ix2 r k) (ix2 ⟨256 * t.val + r.val, by omega⟩ k) rfl rfl

/-- An entry of the result lies in point `t`'s block when its row is among rows `256 t … 256 t + 255`. -/
theorem fused_mem_block (t : Fin cfg1.N) (i : S4096x8192.Idx) :
    i ∈ ((cfg1.win 5).blk t).view.set ↔ ∀ a : Fin 2, win1_5.index t a * S256x8192.size a ≤ (i a).val ∧ (i a).val < win1_5.index t a * S256x8192.size a + S256x8192.size a := by
  show i ∈ ((View.whole main_v1).slice (win1_5.rect t)).set ↔ _
  rw [View.set_slice_whole, Rect.mem_set_unit]
  exact Iff.rfl

/-- The point whose block holds row `p`: `p / 256`. -/
theorem point_of_row (p : Nat) (hp : p < 4096) : ∃ t : Fin cfg1.N, t.val = p / 256 :=
  ⟨⟨p / 256, by show p / 256 < grid1.N; rw [N_1]; omega⟩, rfl⟩

/-- Every entry of the result is written by the point of its row. -/
theorem fused_cover (i : S4096x8192.Idx) :
    ∃ t : Fin cfg1.N, (cfg1.win 5).flush t = true ∧ i ∈ ((cfg1.win 5).blk t).view.set := by
  have hi0 : (i 0).val < 4096 := (i 0).isLt
  have hi1 : (i 1).val < 8192 := (i 1).isLt
  obtain ⟨t, ht⟩ := point_of_row (i 0).val hi0
  obtain ⟨-, -, -, -, -, -, -, -, -, e0, e1⟩ := block_positions t
  refine ⟨t, flush1_5 t, ?_⟩
  rw [fused_mem_block]
  intro a
  match a with
  | ⟨0, _⟩ => show win1_5.index t 0 * 256 ≤ (i 0).val ∧ (i 0).val < win1_5.index t 0 * 256 + 256; rw [e0, ht]; omega
  | ⟨1, _⟩ => show win1_5.index t 1 * 8192 ≤ (i 1).val ∧ (i 1).val < win1_5.index t 1 * 8192 + 8192; rw [e1]; omega

/-- The result array after the pass: row `p`, key `j` is `fusedK` of query row `p` against the keys and unit keys the pass
    finds. -/
theorem fused_final_of (hpay : BlockLaw) (c : Dev nD) :
    (dat1 (F := Ideal) V c).arrAt 5 cfg1.N
      = arr2 (fun p j => fusedK (rows (V c main_arg0) p) (rows (V c main_v0_0)) (rows (V c main_v0_1))
          (rows (V c main_arg2)) (vec1 (V c main_arg3)) j) :=
  (dat1 (F := Ideal) V c).arrAt_eq_of_cover 5 _ (fun t _ => fused_flushed V hpay c t) fused_cover

end Cert.KernelIdeal.FusedArray

end
-- ==== Proof.KernelValue.lean ====
/-
  What the fused program leaves in its result buffer, as a function of the six argument arrays.

  The last host operation flattens region 1's output array; region 1's output array is, row by row, `fusedK` of the
  query row against the key rows and unit key rows it finds in the two arrays region 0 wrote, which are `projRow` and
  `unitRow` of the data rows; every other array either region reads is an argument, still as launched.
-/
import proofs.«430612_j72215580115002_3_alg».proof.Proof.Gen.KernelIdeal.Frame
import proofs.«430612_j72215580115002_3_alg».proof.Proof.Spec
import proofs.«430612_j72215580115002_3_alg».proof.Proof.Result
import proofs.«430612_j72215580115002_3_alg».proof.Proof.KeysValue
import proofs.«430612_j72215580115002_3_alg».proof.Proof.FusedValue
import proofs.«430612_j72215580115002_3_alg».proof.Proof.FusedArray
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.ValueIdx
open Idealize.ShloMosaic.StableHlo
open Cert.KernelIdeal Cert.KernelIdeal.Gen Cert.AttnCos

variable (m : (ℓ : Loc nD τ sig) → Buf (Elt Ideal) ℓ) (ρ : Dev nD → PrngReg)

/-- Region 1 finds the query array as launched: region 0 does not touch it. -/
theorem entry1_arg0 (c : Dev nD) : V1 m ρ c main_arg0 = m ((c : Thread nD τ).loc main_arg0) :=
  W1_of_ne m ρ c main_arg0 (by decide)
theorem entry1_arg2 (c : Dev nD) : V1 m ρ c main_arg2 = m ((c : Thread nD τ).loc main_arg2) :=
  W1_of_ne m ρ c main_arg2 (by decide)
theorem entry1_arg3 (c : Dev nD) : V1 m ρ c main_arg3 = m ((c : Thread nD τ).loc main_arg3) :=
  W1_of_ne m ρ c main_arg3 (by decide)

/-- Region 1 finds the key rows in region 0's first output array. -/
theorem entry1_keys (c : Dev nD) :
    V1 m ρ c main_v0_0 = arr2 (keyRows (m ((c : Thread nD τ).loc main_arg1)) (m ((c : Thread nD τ).loc main_arg4)) (m ((c : Thread nD τ).loc main_arg5))) :=
  (W1_arr m ρ c 3).trans (KeysValue.keys_final (V0 m ρ) c)

/-- Region 1 finds the unit key rows in region 0's second output array. -/
theorem entry1_unitKeys (c : Dev nD) :
    V1 m ρ c main_v0_1 = arr2 (unitKeyRows (m ((c : Thread nD τ).loc main_arg1))) :=
  (W1_arr m ρ c 4).trans (KeysValue.unitKeys_final (V0 m ρ) c)

/-- The last host operation flattens region 1's output array. -/
theorem result_flat (c : Dev nD) :
    W3 m ρ c (Proc.devRef .tc main_v2)
      = shapeCast S33554432 (W2 m ρ c (Proc.devRef .tc main_v1)) shapeCasts_S4096x8192_S33554432 := by
  show StableHlo.after hostOps2 (W2 m ρ c) (Proc.devRef .tc main_v2) = _
  after_results
  rfl

/-- The result buffer at the end of the run: the flattened `resultK` of the launch contents of the six arguments. -/
theorem result_eq (c : Dev nD) :
    W3 m ρ c (Proc.devRef .tc main_v2)
      = shapeCast S33554432
          (resultK (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)))
          shapeCasts_S4096x8192_S33554432 := by
  rw [result_flat]
  refine congrArg (fun a => shapeCast S33554432 a shapeCasts_S4096x8192_S33554432) ?_
  refine (W2_arr m ρ c 5).trans ?_
  rw [FusedArray.fused_final_of (V1 m ρ) FusedValue.fusedPayload_apply c, entry1_arg0, entry1_arg2, entry1_arg3, entry1_keys,
    entry1_unitKeys]
  simp only [rows_arr2]
  rfl

end Cert.KernelIdeal.KernelValue

end
-- ==== Proof.SpecLaws.lean ====
/-
  The laws of the row-wise specification: sums and products of real numbers are real, so the scores of a real query row
  against real keys are real; the maximum of a non-empty row of real scores is real; `exp` of a real is a positive real
  and `exp` of any extended real is non-negative, so the softmax denominator of a row of real scores is positive; and
  for a non-zero denominator `l`, `(c * p) * (1 / l) = c * (p / l)` on the extended reals, by associativity alone.
-/
import proofs.«430612_j72215580115002_3_alg».proof.Proof.Spec

noncomputable section

namespace Cert.AttnCos

open Idealize.ShloMosaic

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsReal.ne_bot {x : EReal} (hx : IsReal x) : x ≠ ⊥ := by obtain ⟨a, rfl⟩ := hx; exact EReal.coe_ne_bot a
theorem IsReal.ne_top {x : EReal} (hx : IsReal x) : x ≠ ⊤ := by obtain ⟨a, rfl⟩ := hx; exact EReal.coe_ne_top a
theorem isReal_of_ne {x : EReal} (hb : x ≠ ⊥) (ht : x ≠ ⊤) : IsReal x := ⟨x.toReal, (EReal.coe_toReal ht hb).symm⟩

variable {B : ℕ}

theorem isReal_projRow {x : Fin 128 → EReal} {W : Fin 128 → Fin 128 → EReal} {b : Fin 128 → EReal}
    (hx : ∀ k, IsReal (x k)) (hW : ∀ d k, IsReal (W d k)) (hb : ∀ d, IsReal (b d)) (d : Fin 128) : IsReal (projRow x W b d) :=
  (IsReal.sum _ _ fun k _ => (hx k).mul (hW d k)).add (hb d)

theorem isReal_dotRows {a : Fin 128 → EReal} {M : Fin B → Fin 128 → EReal}
    (ha : ∀ k, IsReal (a k)) (hM : ∀ j k, IsReal (M j k)) (j : Fin B) : IsReal (dotRows a M j) :=
  IsReal.sum _ _ fun k _ => (ha k).mul (hM j k)

/-- The f32 pattern of `-∞` is the bottom of the extended reals. -/
theorem negInf_eq : negInf = ⊥ := by simp [negInf, Ideal.ofBits, Ideal.ieee]

/-- The f32 pattern of `1.0` is `1`. -/
theorem one32_eq : one32 = 1 := by
  simp [one32, Ideal.ofBits, Ideal.ieee, -EReal.coe_mul]; norm_num

theorem exp_nonneg (x : EReal) : 0 ≤ Ideal.exp x := by
  induction x using EReal.rec with
  | bot => simp
  | coe r => rw [Ideal.exp_coe]; exact EReal.coe_nonneg.mpr (Real.exp_pos r).le
  | top => simp

theorem exp_pos_of_isReal {x : EReal} (hx : IsReal x) : 0 < Ideal.exp x := by
  obtain ⟨r, rfl⟩ := hx; rw [Ideal.exp_coe]; exact EReal.coe_pos.mpr (Real.exp_pos r)

/-- The maximum of a non-empty row of real scores is real. -/
theorem isReal_rowMax (hB : 0 < B) {s : Fin B → EReal} (hs : ∀ j, IsReal (s j)) : IsReal (rowMax s) := by
  refine isReal_of_ne ?_ ?_
  · refine ne_of_gt ?_
    unfold rowMax
    rw [Finset.lt_fold_max]
    exact Or.inr ⟨⟨0, hB⟩, Finset.mem_univ _, bot_lt_iff_ne_bot.mpr (hs _).ne_bot⟩
  · refine ne_of_lt ?_
    unfold rowMax
    rw [Finset.fold_max_lt]
    exact ⟨by rw [negInf_eq]; exact bot_lt_top, fun j _ => lt_top_iff_ne_top.mpr (hs j).ne_top⟩

/-- The softmax denominator of a non-empty row of real scores is positive. -/
theorem rowSum_pos (hB : 0 < B) {s : Fin B → EReal} (hs : ∀ j, IsReal (s j)) : 0 < rowSum s := by
  have h0 : 0 < softNum s ⟨0, hB⟩ := exp_pos_of_isReal ((hs _).sub (isReal_rowMax hB hs))
  refine lt_of_lt_of_le h0 ?_
  unfold rowSum
  exact Finset.single_le_sum (f := softNum s) (fun j _ => exp_nonneg _) (Finset.mem_univ _)

/-- For a non-zero `l`: `(c * p) * (1 / l) = c * (p / l)`. -/
theorem mul_mul_one_div (c p l : EReal) (hl : l ≠ 0) : (c * p) * Ideal.div one32 l = c * Ideal.div p l := by
  unfold Ideal.div
  rw [if_neg hl, if_neg hl, one32_eq, one_mul, mul_assoc]

/-- The two ways of writing the result agree on a real query row, real keys, real weights and a real bias. -/
theorem fusedK_eq_fusedR (hB : 0 < B) {x : Fin 128 → EReal} {K : Fin B → Fin 128 → EReal} (DN : Fin B → Fin 128 → EReal)
    {Wq : Fin 128 → Fin 128 → EReal} {bq : Fin 128 → EReal}
    (hx : ∀ k, IsReal (x k)) (hK : ∀ j d, IsReal (K j d)) (hWq : ∀ d k, IsReal (Wq d k)) (hbq : ∀ d, IsReal (bq d)) (j : Fin B) :
    fusedK x K DN Wq bq j = fusedR x K DN Wq bq j := by
  have hs : ∀ j', IsReal (scores x K Wq bq j') := fun j' => isReal_dotRows (isReal_projRow hx hWq hbq) hK j'
  exact mul_mul_one_div _ _ _ (ne_of_gt (rowSum_pos hB hs))

end Cert.AttnCos

end
-- ==== Proof.RefValue.lean ====
/-
  The plain program, read one entry at a time, is the row-by-row mathematics of the shared specification.

  Its stages, each at a row `p` of the queries and a key `j`:
    * the affine projections `sub·Wqᵀ + bq` and `data·Wkᵀ + bk` are `projRow` of the rows;
    * a row divided by its Euclidean length floored at `ε` is `unitRow` of the row (the sum of squares starts from the
      zero word, which is the real `0`);
    * the scores are the inner products of the projected query row with the projected key rows: `scores`;
    * the maximum of a score row, folded over the keys from `-∞` and then once more compared with `-∞` (which is the
      least extended real, so that comparison changes nothing), is `rowMax`;
    * `exp (s j - max s)` is `softNum`, its sum over the keys from the zero word is `rowSum`, and the quotient of the
      two is the softmax;
    * the inner product of the two unit rows, floored at the zero word, is `cosRelu`;
  and the product of the last with the softmax is `fusedR`, the form `c * (p / l)`.
-/
import proofs.«430612_j72215580115002_3_alg».proof.Proof.Gen.ReferenceIdeal.Read
import proofs.«430612_j72215580115002_3_alg».proof.Proof.Spec

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Read Cert.AttnCos

section Stages

variable (x0 : (⟨S4096x128, .f32⟩ : BufTy).Contents (Elt Ideal)) (x1 : (⟨S8192x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))

/-- Two indices of a two-axis array with the same coordinates, axis by axis. -/
local macro "idx_eq2" : tactic => `(tactic| (funext a; match a with | ⟨0, _⟩ => rfl | ⟨1, _⟩ => rfl))
/-- Two indices of a one-axis array with the same coordinate. -/
local macro "idx_eq1" : tactic => `(tactic| (funext a; match a with | ⟨0, _⟩ => rfl))

/-! ### The affine projections -/

/-- The projected query row: `sub·Wqᵀ + bq` at row `p`, coordinate `d`. -/
theorem proj_sub (p : Fin 4096) (d : Fin 128) :
    val_main_v4 (F := Ideal) x0 x2 x3 (ix2 p d) = projRow (rows x0 p) (rows x2) (vec1 x3) d := by
  rw [val_main_v4_apply, val_main_v1_apply, val_main_v3_apply, val_main_v2_apply, Ideal.addf_def]
  unfold projRow rows vec1
  refine congrArg₂ (· + ·) (Finset.sum_congr rfl fun k _ => ?_) (congrArg x3 ?_)
  · rw [val_main_v0_apply]
    refine congrArg₂ (· * ·) (congrArg x0 ?_) (congrArg x2 ?_)
    · idx_eq2
    · idx_eq2
  · idx_eq1

/-- The projected key row: `data·Wkᵀ + bk` at key `j`, coordinate `d`. -/
theorem proj_data (j : Fin 8192) (d : Fin 128) :
    val_main_v9 (F := Ideal) x1 x4 x5 (ix2 j d) = projRow (rows x1 j) (rows x4) (vec1 x5) d := by
  rw [val_main_v9_apply, val_main_v6_apply, val_main_v8_apply, val_main_v7_apply, Ideal.addf_def]
  unfold projRow rows vec1
  refine congrArg₂ (· + ·) (Finset.sum_congr rfl fun k _ => ?_) (congrArg x5 ?_)
  · rw [val_main_v5_apply]
    refine congrArg₂ (· * ·) (congrArg x1 ?_) (congrArg x4 ?_)
    · idx_eq2
    · idx_eq2
  · idx_eq1

/-! ### The unit rows -/

/-- The query row scaled to unit length. -/
theorem unit_sub (p : Fin 4096) (k : Fin 128) :
    val_main_v28 (F := Ideal) x0 (ix2 p k) = unitRow (rows x0 p) k := by
  rw [val_main_v28_apply, val_main_v27_apply, val_main_v26_apply, val_main_v24_apply, val_main_call0_v2_apply,
    val_main_call0_v1_apply, val_main_v25_apply, val_main_cst_2_apply, val_main_call0_cst_apply]
  simp only [Ideal.hostDivf_def, Ideal.maximumf_def, Ideal.hostUnary_sqrt_def, Ideal.ofBits_def, Ideal.ofBits_zero_f32,
    zero_add, val_main_call0_v0_apply, Ideal.mulf_def]
  have e : ∀ k' : Fin 128, idx_main_call0_v1 (idx_main_call0_v2 (idx_main_v27 (ix2 p k))) k' = ix2 p k' :=
    fun k' => by idx_eq2
  simp only [e]
  rfl

/-- The key row scaled to unit length. -/
theorem unit_data (j : Fin 8192) (k : Fin 128) :
    val_main_v33 (F := Ideal) x1 (ix2 j k) = unitRow (rows x1 j) k := by
  rw [val_main_v33_apply, val_main_v32_apply, val_main_v31_apply, val_main_v29_apply, val_main_call1_v2_apply,
    val_main_call1_v1_apply, val_main_v30_apply, val_main_cst_3_apply, val_main_call1_cst_apply]
  simp only [Ideal.hostDivf_def, Ideal.maximumf_def, Ideal.hostUnary_sqrt_def, Ideal.ofBits_def, Ideal.ofBits_zero_f32,
    zero_add, val_main_call1_v0_apply, Ideal.mulf_def]
  have e : ∀ k' : Fin 128, idx_main_call1_v1 (idx_main_call1_v2 (idx_main_v32 (ix2 j k))) k' = ix2 j k' :=
    fun k' => by idx_eq2
  simp only [e]
  rfl

/-! ### The scores and the pieces of the softmax -/

/-- The projected key rows, as the specification takes them. -/
abbrev keyRows (x1 : (⟨S8192x128, .f32⟩ : BufTy).Contents (Elt Ideal)) (x4 : (⟨S128x128, .f32⟩ : BufTy).Contents (Elt Ideal))
    (x5 : (⟨S128, .f32⟩ : BufTy).Contents (Elt Ideal)) : Fin 8192 → Fin 128 → EReal :=
  fun j' => projRow (rows x1 j') (rows x4) (vec1 x5)

/-- The score row of query `p`. -/
abbrev scoreRow (x0 : (⟨S4096x128, .f32⟩ : BufTy).Contents (Elt Ideal)) (x1 : (⟨S8192x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (p : Fin 4096) :
    Fin 8192 → EReal :=
  scores (rows x0 p) (keyRows x1 x4 x5) (rows x2) (vec1 x3)

/-- The score of query `p` against key `j`: the inner product of the two projected rows. -/
theorem score_eq (p : Fin 4096) (j : Fin 8192) :
    val_main_v11 (F := Ideal) x0 x1 x2 x3 x4 x5 (ix2 p j) = scoreRow x0 x1 x2 x3 x4 x5 p j := by
  rw [val_main_v11_apply]
  unfold scoreRow scores dotRows keyRows
  refine Finset.sum_congr rfl fun k _ => ?_
  rw [val_main_v10_apply]
  have el : lidx_main_v11 (ix2 p j) k = ix2 p k := by idx_eq2
  have er : idx_main_v10 (ridx_main_v11 (ix2 p j) k) = ix2 j k := by idx_eq2
  rw [el, er, proj_sub, proj_data]

/-- The fold of `max` from `-∞` over the second axis of a `4096 × 8192` array, at row `p`, is the row's `rowMax`. -/
theorem fold_max_row (y : S4096x8192.Idx → EReal) (p : Fin 4096) :
    Host.reduce (α := EReal) (FloatOps.maximumf (F := Ideal) (φ := .f32)) y (val_main_cst (F := Ideal))
        Gen.reducesTo_S4096x8192_S4096_d1 Gen.h_S_ (ix1 p)
      = rowMax (fun j : Fin 8192 => y (ix2 p j)) := by
  have h : S4096x8192.Reduces [1] S4096 := by decide
  have h0 := Host.reduce_eq_fold_single (α := EReal) (FloatOps.maximumf (F := Ideal) (φ := .f32)) y (val_main_cst (F := Ideal))
    Gen.reducesTo_S4096x8192_S4096_d1 h Gen.h_S_ (ix1 p)
  have hf : (y ∘ h.lift (ix1 p)) = fun j : Fin 8192 => y (ix2 p j) := by
    funext k
    refine congrArg y (funext fun ax => Fin.ext ?_)
    rw [Shape.Reduces.lift_val]
    match ax with
    | ⟨0, _⟩ => rfl
    | ⟨1, _⟩ => rfl
  rw [h0, hf]
  rfl

/-- The maximum of a score row, as the program folds it over the keys from `-∞`. -/
theorem fold_max_eq (p : Fin 4096) :
    val_main_v12 (F := Ideal) x0 x1 x2 x3 x4 x5 (ix1 p) = rowMax (scoreRow x0 x1 x2 x3 x4 x5 p) := by
  have hs : scoreRow x0 x1 x2 x3 x4 x5 p = fun j : Fin 8192 => val_main_v11 (F := Ideal) x0 x1 x2 x3 x4 x5 (ix2 p j) :=
    funext fun j => (score_eq x0 x1 x2 x3 x4 x5 p j).symm
  rw [hs]
  unfold val_main_v12
  generalize val_main_v11 (F := Ideal) x0 x1 x2 x3 x4 x5 = y
  exact fold_max_row y p

/-- `-∞` is the least extended real: comparing with it changes nothing. -/
theorem max_negInf (y : EReal) : max (Ideal.ofBits .f32 0xFF800000#32) y = y := by
  simp [Ideal.ofBits, Ideal.ieee]

/-- The row maximum the program subtracts. -/
theorem row_max_eq (p : Fin 4096) :
    val_main_v14 (F := Ideal) x0 x1 x2 x3 x4 x5 (ix1 p) = rowMax (scoreRow x0 x1 x2 x3 x4 x5 p) := by
  rw [val_main_v14_apply, val_main_v13_apply, val_main_cst_0_apply, fold_max_eq, Ideal.maximumf_def, Ideal.ofBits_def]
  exact max_negInf _

/-- The softmax numerator. -/
theorem soft_num_eq (p : Fin 4096) (j : Fin 8192) :
    val_main_v18 (F := Ideal) x0 x1 x2 x3 x4 x5 (ix2 p j) = softNum (scoreRow x0 x1 x2 x3 x4 x5 p) j := by
  rw [val_main_v18_apply, val_main_v17_apply, val_main_v16_apply, val_main_v15_apply]
  have e : idx_main_v15 (idx_main_v16 (ix2 p j)) = ix1 p := by idx_eq1
  rw [e, row_max_eq, score_eq, Ideal.hostUnary_exp_def, Ideal.subf_def]
  rfl

/-- The softmax denominator. -/
theorem row_sum_eq (p : Fin 4096) :
    val_main_v19 (F := Ideal) x0 x1 x2 x3 x4 x5 (ix1 p) = rowSum (scoreRow x0 x1 x2 x3 x4 x5 p) := by
  rw [val_main_v19_apply, val_main_cst_1_apply, Ideal.ofBits_def, Ideal.ofBits_zero_f32, zero_add]
  unfold rowSum
  refine Finset.sum_congr rfl fun k _ => ?_
  have e : idx_main_v19 (ix1 p) k = ix2 p k := by idx_eq2
  rw [e, soft_num_eq]

/-- The softmax of the score row at key `j`. -/
theorem softmax_eq (p : Fin 4096) (j : Fin 8192) :
    val_main_v22 (F := Ideal) x0 x1 x2 x3 x4 x5 (ix2 p j)
      = Ideal.div (softNum (scoreRow x0 x1 x2 x3 x4 x5 p) j) (rowSum (scoreRow x0 x1 x2 x3 x4 x5 p)) := by
  rw [val_main_v22_apply, val_main_v21_apply, val_main_v20_apply]
  have e : idx_main_v20 (idx_main_v21 (ix2 p j)) = ix1 p := by idx_eq1
  rw [e, row_sum_eq, soft_num_eq, Ideal.hostDivf_def]

/-! ### The rectified cosine -/

/-- The rectified cosine similarity of query `p` and key `j`. -/
theorem cos_relu_eq (p : Fin 4096) (j : Fin 8192) :
    val_main_v36 (F := Ideal) x0 x1 (ix2 p j) = cosRelu (rows x0 p) (fun j' => unitRow (rows x1 j')) j := by
  rw [val_main_v36_apply, val_main_call2_v0_apply, val_main_call2_cst_apply, val_main_v35_apply, Ideal.maximumf_def,
    Ideal.ofBits_def]
  unfold cosRelu dotRows zero32
  refine congrArg (max · _) (Finset.sum_congr rfl fun k _ => ?_)
  rw [val_main_v34_apply]
  have el : lidx_main_v35 (ix2 p j) k = ix2 p k := by idx_eq2
  have er : idx_main_v34 (ridx_main_v35 (ix2 p j) k) = ix2 j k := by idx_eq2
  rw [el, er, unit_sub, unit_data]

end Stages

/-- The plain program's entry at query `p`, key `j` is the specification's `c * (p / l)`. -/
theorem ref_is_spec (x0 : (⟨S4096x128, .f32⟩ : BufTy).Contents (Elt Ideal)) (x1 : (⟨S8192x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (p : Fin 4096) (j : Fin 8192) :
    val_main_v36 (F := Ideal) x0 x1 (ix2 p j) * val_main_v22 (F := Ideal) x0 x1 x2 x3 x4 x5 (ix2 p j)
      = fusedR (rows x0 p) (fun j' => projRow (rows x1 j') (rows x4) (vec1 x5)) (fun j' => unitRow (rows x1 j'))
          (rows x2) (vec1 x3) j := by
  rw [cos_relu_eq, softmax_eq]
  unfold fusedR
  rfl

end Cert.ReferenceIdeal.RefValue

end
-- ==== Proof.Bridge.lean ====
/-
  The plain program's flat result is the fused program's flat result, entry by entry, when every argument entry is real.

  Flat entry `i` of either is entry `(i / 8192, i % 8192)` of a `[4096, 8192]` array. There the plain program holds
  `c * (p / l)` (`fusedR`) and the fused one `(c * p) * (1 / l)` (`fusedK`) of the same query row, key rows and unit key
  rows; the two agree because the softmax denominator `l` of a row of real scores is positive.
-/
import proofs.«430612_j72215580115002_3_alg».proof.Proof.Gen.ReferenceIdeal.Read
import proofs.«430612_j72215580115002_3_alg».proof.Proof.Spec
import proofs.«430612_j72215580115002_3_alg».proof.Proof.SpecLaws
import proofs.«430612_j72215580115002_3_alg».proof.Proof.Result
import proofs.«430612_j72215580115002_3_alg».proof.Proof.RefValue

set_option maxRecDepth 16384

noncomputable section

namespace Cert.Bridge

open Idealize.ShloMosaic Idealize.ShloMosaic.TcCoe Idealize.SL.Sem Idealize.ShloMosaic.ValueIdx
open Cert.ReferenceIdeal Cert.ReferenceIdeal.Gen Cert.ReferenceIdeal.Read Cert.AttnCos

/-- A `[4096, 8192]` array flattened reads, at `i`, its entry `(i / 8192, i % 8192)`. -/
theorem flat_apply (y : S4096x8192.Idx → EReal) (i : S33554432.Idx) :
    shapeCast S33554432 y shapeCasts_S4096x8192_S33554432 i = y (idx_main_v23 i) :=
  shapeCast_apply y shapeCasts_S4096x8192_S33554432 i (idx_main_v23 i) (by
    rw [Shape.rowMajor_val_two, Shape.rowMajor_val_one]
    exact Nat.div_add_mod' (i 0).val 8192)

theorem flat_eq (x0 : (⟨S4096x128, .f32⟩ : BufTy).Contents (Elt Ideal)) (x1 : (⟨S8192x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) :
    val_main_v38 (F := Ideal) x0 x1 x2 x3 x4 x5
      = shapeCast S33554432 (resultK x0 x1 x2 x3 x4 x5) shapeCasts_S4096x8192_S33554432 := by
  funext i
  rw [flat_apply, val_main_v38_apply, val_main_v37_apply, val_main_v23_apply]
  show val_main_v36 (F := Ideal) x0 x1 (idx_main_v23 i) * val_main_v22 (F := Ideal) x0 x1 x2 x3 x4 x5 (idx_main_v23 i) = _
  obtain ⟨p, j, hy⟩ : ∃ (p : Fin 4096) (j : Fin 8192), idx_main_v23 i = ix2 p j :=
    ⟨idx_main_v23 i 0, idx_main_v23 i 1, eq_ix2 _⟩
  rw [hy, RefValue.ref_is_spec]
  unfold resultK
  rw [arr2_ix2]
  exact (fusedK_eq_fusedR (by decide) _ (fun k => h0 _)
    (fun j' d => isReal_projRow (fun k => h1 _) (fun d' k => h4 _) (fun d' => h5 _) d)
    (fun d k => h2 _) (fun d => h3 _) j).symm

end Cert.Bridge

end
-- ==== Proof.FiniteInputs.lean ====
import proofs.«430612_j72215580115002_3_alg».proof.Defs
import proofs.«430612_j72215580115002_3_alg».proof.Proof.Gen.Pre_finite_inputs
import proofs.«430612_j72215580115002_3_alg».proof.Proof.Spec
import Idealize.ShloMosaic.Lib.ReduceAll

/-!
  The precondition read back. The predicate is, for each of the six argument arrays, the conjunction over
  all entries of |x| < +∞, and the six conjunctions and-ed. Over the extended reals, max x (-x) < ⊤ rules
  out both ⊤ and ⊥, so every entry is a real number.
-/

set_option maxRecDepth 16384

noncomputable section

namespace Cert.FiniteInputs

open Idealize.ShloMosaic Idealize.ShloMosaic.TcCoe Idealize.SL.Sem Idealize.ShloMosaic.ValueIdx
open Cert.AttnCos

/-- The rank-0 shape has one index. -/
local instance : Subsingleton Cert.Pre_finite_inputs.S_.Idx := ⟨fun _ _ => funext fun d => d.elim0⟩

/-- A one-bit word made from a Boolean is 1 exactly when the Boolean is true. -/
theorem ofBool_eq_one {b : Bool} : BitVec.ofBool b = 1#1 ↔ b = true := by cases b <;> decide

/-- The f32 word 0x7F800000 denotes +∞. -/
theorem posInf_eq_top : Ideal.ofBits .f32 0x7F800000#32 = (⊤ : EReal) := by
  simp [Ideal.ofBits, Ideal.ieee]

/-- The element fact: an extended real whose absolute value max x (-x) compares strictly below +∞
    is neither ⊤ nor ⊥ (for ⊥, -⊥ = ⊤), hence a real. -/
theorem isReal_of_abs_lt (x : EReal)
    (h : Ideal.cmp .olt (max x (-x)) (Ideal.ofBits .f32 0x7F800000#32) = 1#1) : IsReal x := by
  rw [posInf_eq_top] at h
  simp only [Ideal.cmp, ofBool_eq_one, decide_eq_true_eq] at h
  induction x using EReal.rec with
  | bot => simp at h
  | coe r => exact ⟨r, rfl⟩
  | top => simp at h

/-- One all-finite test: if the and-reduction over every axis of the entrywise test |x| < +∞ (the bound a
    rank-0 constant broadcast to the array's shape) is 1, every entry is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant Cert.Pre_finite_inputs.S_ .f32 0x7F800000#32)))
          (constantI Cert.Pre_finite_inputs.S_ 1 1#1) hr hu ix0 = 1#1) :
    ∀ i, IsReal (x i) := by
  intro i
  have hi := Host.reduce_andi_all _ _ hr hu ix0 e i
  exact isReal_of_abs_lt (x i) hi

attribute [local instance] Cert.Pre_finite_inputs.Gen.facts in
theorem inputs_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i)) := by
  have h0 := congrFun (h c) ix0
  dsimp only [Cert.Pre_finite_inputs.fn, Cert.Pre_finite_inputs.fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ _ e0, all_real _ _ _ _ e1, all_real _ _ _ _ e2, all_real _ _ _ _ e3,
    all_real _ _ _ _ e4, all_real _ _ _ _ e5⟩

end Cert.FiniteInputs

end
-- ==== Proof.lean ====
/-
  The certificate: a two-stage fused attention-times-cosine program against its plain reference.

  Stage one writes, for every data row, its key row `data·Wkᵀ + bk` and its unit row `data / max(‖data‖, ε)`. Stage two
  writes, for every query row `x` and key `j`, `(relu(cos) * exp(s j - max s)) * (1 / Σ exp(s - max s))` with the scores
  `s = (x·Wqᵀ + bq)·keysᵀ` and `cos` the inner product of the unit rows; the result is that array flattened. The plain
  program computes `relu(cos) * (exp(s j - max s) / Σ exp(s - max s))`, flattened. On the extended reals the two agree
  wherever the softmax denominator is not zero, and under the precondition — every argument entry finite — the scores
  are real, so the denominator is positive (Proof/SpecLaws.lean).

  The frames of the two fused programs are the generated ones; the plain program's frame is its generated run with the
  result dropped; the idealization rewrote nothing. For the value claim the fused program's run names its result buffer
  (Proof/NamedRun.lean), which is read back to the launch contents of the six arguments (Proof/KernelValue.lean over the
  two regions' arrays: Proof/KeysValue.lean, and Proof/FusedValue.lean with Proof/FusedArray.lean); the plain program's result is read index by index
  (Proof/RefValue.lean); Proof/Bridge.lean joins the two.
-/
import proofs.«430612_j72215580115002_3_alg».proof.Defs
import proofs.«430612_j72215580115002_3_alg».proof.Proof.Gen.Kernel
import proofs.«430612_j72215580115002_3_alg».proof.Proof.Gen.Kernel.Skeleton
import proofs.«430612_j72215580115002_3_alg».proof.Proof.Gen.Kernel.Launch
import proofs.«430612_j72215580115002_3_alg».proof.Proof.Gen.Kernel.Points
import proofs.«430612_j72215580115002_3_alg».proof.Proof.Gen.Kernel.Frame
import proofs.«430612_j72215580115002_3_alg».proof.Proof.Gen.KernelIdeal
import proofs.«430612_j72215580115002_3_alg».proof.Proof.Gen.KernelIdeal.Skeleton
import proofs.«430612_j72215580115002_3_alg».proof.Proof.Gen.KernelIdeal.Launch
import proofs.«430612_j72215580115002_3_alg».proof.Proof.Gen.KernelIdeal.Points
import proofs.«430612_j72215580115002_3_alg».proof.Proof.Gen.KernelIdeal.Frame
import proofs.«430612_j72215580115002_3_alg».proof.Proof.Gen.ReferenceIdeal
import proofs.«430612_j72215580115002_3_alg».proof.Proof.Gen.Pre_finite_inputs
import proofs.«430612_j72215580115002_3_alg».proof.Proof.Gen.ReferenceIdeal.Run
import proofs.«430612_j72215580115002_3_alg».proof.Proof.Gen.ReferenceIdeal.Read
import proofs.«430612_j72215580115002_3_alg».proof.Proof.NamedRun
import proofs.«430612_j72215580115002_3_alg».proof.Proof.KernelValue
import proofs.«430612_j72215580115002_3_alg».proof.Proof.Bridge
import proofs.«430612_j72215580115002_3_alg».proof.Proof.FiniteInputs
import Idealize.ShloMosaic.Adequacy
import Idealize.ShloMosaic.Init

noncomputable section

namespace Cert.Proof

open Idealize.ShloMosaic Idealize.ShloMosaic.TcCoe Idealize.SL.Sem

/-- The word-level fused program runs and leaves its arguments as launched. -/
theorem frame_kernel : Cert.frame_Kernel := fun m ρ _ => Cert.Kernel.Gen.frame m ρ

/-- So does the fused program read on the extended reals. -/
theorem frame_kernelIdeal : Cert.frame_KernelIdeal := fun m ρ _ => Cert.KernelIdeal.Gen.frame m ρ

/-- The plain program's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, all entries finite, both programs end with the same flat array: the
    fused program's result buffer holds the flattened `resultK` of its arguments, and the plain program's result is that
    same array entry by entry. -/
theorem algebraic : Cert.algebraic_KernelIdeal_ReferenceIdeal := by
  intro m ρ m' ρ' hpre hagree
  refine ⟨fun c => Cert.KernelIdeal.Gen.W3 m ρ c (Proc.devRef .tc Cert.KernelIdeal.main_v2),
    Cert.KernelIdeal.NamedRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5⟩ := Cert.FiniteInputs.inputs_real m hpre c
  obtain ⟨a0, a1, a2, a3, a4, a5⟩ := hagree c
  refine (Cert.ReferenceIdeal.Read.val_main_v38_eq m' c).trans ?_
  rw [a0, a1, a2, a3, a4, a5]
  refine (Cert.Bridge.flat_eq _ _ _ _ _ _ r0 r1 r2 r3 r4 r5).trans ?_
  exact (Cert.KernelIdeal.KernelValue.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
